-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x512 : Shape := ⟨2, ![4096, 512]⟩
abbrev S4096x32 : Shape := ⟨2, ![4096, 32]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x32 : S_.BroadcastsInDim S4096x32 (![] : Fin 0 → Fin S4096x32.rank)
  reducesTo_S4096x32_S_d0_1 : S4096x32.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S4x2048x4096 .f32) (main_arg1 : IVec S4096x512 32) (main_arg2 : FVec F S4096x32 .f32) (main_arg3 : FVec F S4096x32 .f32) (main_arg4 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x32 .f32 := Host.absf main_arg2
  let main_cst_0 : FVec F S_ .f32 := constant S_ .f32 0x7F800000#32
  let main_v5 : FVec F S4096x32 .f32 := broadcastInDim S4096x32 ![] bcast_S_S4096x32 main_cst_0
  let main_v6 : IVec S4096x32 1 := cmpf .olt main_v4 main_v5
  let main_c_1 : IVec S_ 1 := constantI S_ 1 1#1
  let main_v7 : IVec S_ 1 := (fun x v => Host.reduce IntOp.andi x v reducesTo_S4096x32_S_d0_1 h_S_) main_v6 main_c_1
  let main_v8 : IVec S_ 1 := andi main_v3 main_v7
  let main_v9 : FVec F S4096x32 .f32 := Host.absf main_arg3
  let main_cst_2 : FVec F S_ .f32 := constant S_ .f32 0x7F800000#32
  let main_v10 : FVec F S4096x32 .f32 := broadcastInDim S4096x32 ![] bcast_S_S4096x32 main_cst_2
  let main_v11 : IVec S4096x32 1 := cmpf .olt main_v9 main_v10
  let main_c_3 : IVec S_ 1 := constantI S_ 1 1#1
  let main_v12 : IVec S_ 1 := (fun x v => Host.reduce IntOp.andi x v reducesTo_S4096x32_S_d0_1 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S4x2048x4096 : Shape := ⟨3, ![4, 2048, 4096]⟩
abbrev S4096x512 : Shape := ⟨2, ![4096, 512]⟩
abbrev S4096x32 : Shape := ⟨2, ![4096, 32]⟩
abbrev S4096 : Shape := ⟨1, ![4096]⟩
abbrev S8192x4096 : Shape := ⟨2, ![8192, 4096]⟩
abbrev S1x4096 : Shape := ⟨2, ![1, 4096]⟩
abbrev S512x4096 : Shape := ⟨2, ![512, 4096]⟩
abbrev S512x512 : Shape := ⟨2, ![512, 512]⟩
abbrev S512x32 : Shape := ⟨2, ![512, 32]⟩
abbrev S1x512 : Shape := ⟨2, ![1, 512]⟩
abbrev S512x32x8 : Shape := ⟨3, ![512, 32, 8]⟩
abbrev S512x32x1 : Shape := ⟨3, ![512, 32, 1]⟩
abbrev S512x256 : Shape := ⟨2, ![512, 256]⟩
abbrev S512x2 : Shape := ⟨2, ![512, 2]⟩
abbrev S512x2x1 : Shape := ⟨3, ![512, 2, 1]⟩
abbrev S512x2x128 : Shape := ⟨3, ![512, 2, 128]⟩

abbrev nBuf : Space → Nat
  | .hbm => 10
  | .vmem => 13
  | .smem => 0
  | _ => 0

abbrev bufTy : (tb : Table) → Fin (tcTables nBuf tb) → BufTy
  | .hbm, ⟨0, _⟩ => ⟨S4x2048x4096, .f32⟩
  | .hbm, ⟨1, _⟩ => ⟨S4096x512, .i32⟩
  | .hbm, ⟨2, _⟩ => ⟨S4096x32, .f32⟩
  | .hbm, ⟨3, _⟩ => ⟨S4096x32, .f32⟩
  | .hbm, ⟨4, _⟩ => ⟨S4096, .f32⟩
  | .hbm, ⟨5, _⟩ => ⟨S8192x4096, .f32⟩
  | .hbm, ⟨6, _⟩ => ⟨S8192x4096, .bf16⟩
  | .hbm, ⟨7, _⟩ => ⟨S1x4096, .f32⟩
  | .hbm, ⟨8, _⟩ => ⟨S8192x4096, .f32⟩
  | .hbm, ⟨9, _⟩ => ⟨S4x2048x4096, .f32⟩
  | .local _ .vmem, ⟨0, _⟩ => ⟨S512x4096, .bf16⟩
  | .local _ .vmem, ⟨1, _⟩ => ⟨S512x4096, .bf16⟩
  | .local _ .vmem, ⟨2, _⟩ => ⟨S512x512, .i32⟩
  | .local _ .vmem, ⟨3, _⟩ => ⟨S512x512, .i32⟩
  | .local _ .vmem, ⟨4, _⟩ => ⟨S512x32, .f32⟩
  | .local _ .vmem, ⟨5, _⟩ => ⟨S512x32, .f32⟩
  | .local _ .vmem, ⟨6, _⟩ => ⟨S512x32, .f32⟩
  | .local _ .vmem, ⟨7, _⟩ => ⟨S512x32, .f32⟩
  | .local _ .vmem, ⟨8, _⟩ => ⟨S1x512, .f32⟩
  | .local _ .vmem, ⟨9, _⟩ => ⟨S1x512, .f32⟩
  | .local _ .vmem, ⟨10, _⟩ => ⟨S512x512, .f32⟩
  | .local _ .vmem, ⟨11, _⟩ => ⟨S512x512, .f32⟩
  | .local _ .vmem, ⟨12, _⟩ => ⟨S512x4096, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S4x2048x4096_S8192x4096 : S4x2048x4096.ShapeCasts S8192x4096
  bitsLt_bf16_f32 : FTy.bits .bf16 < FTy.bits .f32
  shapeCasts_S4096_S1x4096 : S4096.ShapeCasts S1x4096
  inb_S512x512_S512x32_0_0 : ∀ a, (![0, 0] : Fin 2 → Nat) a + S512x32.size a ≤ S512x512.size a
  h_S512x32 : 0 < S512x32.numel
  iota_S512x32x8_d2_w32 : S512x32x8.Iotas .tc 32 [2]
  shapeCasts_S512x32_S512x32x1 : S512x32.ShapeCasts S512x32x1
  broadcasts_S512x32x1_S512x32x8 : S512x32x1.Broadcasts S512x32x8
  shapeCasts_S512x32x8_S512x256 : S512x32x8.ShapeCasts S512x256
  inb_S512x32_S512x2_0_0 : ∀ a, (![0, 0] : Fin 2 → Nat) a + S512x2.size a ≤ S512x32.size a
  h_S512x2 : 0 < S512x2.numel
  shapeCasts_S512x2_S512x2x1 : S512x2.ShapeCasts S512x2x1
  shapeCasts_S512x2x1_S512x2x1 : S512x2x1.ShapeCasts S512x2x1
  broadcasts_S512x2x1_S512x2x128 : S512x2x1.Broadcasts S512x2x128
  shapeCasts_S512x2x128_S512x256 : S512x2x128.ShapeCasts S512x256
  inb_S512x4096_S512x256_0_0 : ∀ a, (![0, 0] : Fin 2 → Nat) a + S512x256.size a ≤ S512x4096.size a
  h_S512x256 : 0 < S512x256.numel
  shapeCasts_S512x256_S512x256 : S512x256.ShapeCasts S512x256
  packedbf16_S512x4096_S512x256_0_0 : (Rect.unit (s := S512x4096) ![0, 0] S512x256.size inb_S512x4096_S512x256_0_0).PackedRows (EltTy.packing .bf16)
  inb_S512x512_S512x32_0_32 : ∀ a, (![0, 32] : Fin 2 → Nat) a + S512x32.size a ≤ S512x512.size a
  inb_S512x32_S512x2_0_2 : ∀ a, (![0, 2] : Fin 2 → Nat) a + S512x2.size a ≤ S512x32.size a
  inb_S512x4096_S512x256_0_256 : ∀ a, (![0, 256] : Fin 2 → Nat) a + S512x256.size a ≤ S512x4096.size a
  packedbf16_S512x4096_S512x256_0_256 : (Rect.unit (s := S512x4096) ![0, 256] S512x256.size inb_S512x4096_S512x256_0_256).PackedRows (EltTy.packing .bf16)
  inb_S512x512_S512x32_0_64 : ∀ a, (![0, 64] : Fin 2 → Nat) a + S512x32.size a ≤ S512x512.size a
  inb_S512x32_S512x2_0_4 : ∀ a, (![0, 4] : Fin 2 → Nat) a + S512x2.size a ≤ S512x32.size a
  inb_S512x4096_S512x256_0_512 : ∀ a, (![0, 512] : Fin 2 → Nat) a + S512x256.size a ≤ S512x4096.size a
  packedbf16_S512x4096_S512x256_0_512 : (Rect.unit (s := S512x4096) ![0, 512] S512x256.size inb_S512x4096_S512x256_0_512).PackedRows (EltTy.packing .bf16)
  inb_S512x512_S512x32_0_96 : ∀ a, (![0, 96] : Fin 2 → Nat) a + S512x32.size a ≤ S512x512.size a
  inb_S512x32_S512x2_0_6 : ∀ a, (![0, 6] : Fin 2 → Nat) a + S512x2.size a ≤ S512x32.size a
  inb_S512x4096_S512x256_0_768 : ∀ a, (![0, 768] : Fin 2 → Nat) a + S512x256.size a ≤ S512x4096.size a
  packedbf16_S512x4096_S512x256_0_768 : (Rect.unit (s := S512x4096) ![0, 768] S512x256.size inb_S512x4096_S512x256_0_768).PackedRows (EltTy.packing .bf16)
  inb_S512x512_S512x32_0_128 : ∀ a, (![0, 128] : Fin 2 → Nat) a + S512x32.size a ≤ S512x512.size a
  inb_S512x32_S512x2_0_8 : ∀ a, (![0, 8] : Fin 2 → Nat) a + S512x2.size a ≤ S512x32.size a
  inb_S512x4096_S512x256_0_1024 : ∀ a, (![0, 1024] : Fin 2 → Nat) a + S512x256.size a ≤ S512x4096.size a
  packedbf16_S512x4096_S512x256_0_1024 : (Rect.unit (s := S512x4096) ![0, 1024] S512x256.size inb_S512x4096_S512x256_0_1024).PackedRows (EltTy.packing .bf16)
  inb_S512x512_S512x32_0_160 : ∀ a, (![0, 160] : Fin 2 → Nat) a + S512x32.size a ≤ S512x512.size a
  inb_S512x32_S512x2_0_10 : ∀ a, (![0, 10] : Fin 2 → Nat) a + S512x2.size a ≤ S512x32.size a
  inb_S512x4096_S512x256_0_1280 : ∀ a, (![0, 1280] : Fin 2 → Nat) a + S512x256.size a ≤ S512x4096.size a
  packedbf16_S512x4096_S512x256_0_1280 : (Rect.unit (s := S512x4096) ![0, 1280] S512x256.size inb_S512x4096_S512x256_0_1280).PackedRows (EltTy.packing .bf16)
  inb_S512x512_S512x32_0_192 : ∀ a, (![0, 192] : Fin 2 → Nat) a + S512x32.size a ≤ S512x512.size a
  inb_S512x32_S512x2_0_12 : ∀ a, (![0, 12] : Fin 2 → Nat) a + S512x2.size a ≤ S512x32.size a
  inb_S512x4096_S512x256_0_1536 : ∀ a, (![0, 1536] : Fin 2 → Nat) a + S512x256.size a ≤ S512x4096.size a
  packedbf16_S512x4096_S512x256_0_1536 : (Rect.unit (s := S512x4096) ![0, 1536] S512x256.size inb_S512x4096_S512x256_0_1536).PackedRows (EltTy.packing .bf16)
  inb_S512x512_S512x32_0_224 : ∀ a, (![0, 224] : Fin 2 → Nat) a + S512x32.size a ≤ S512x512.size a
  inb_S512x32_S512x2_0_14 : ∀ a, (![0, 14] : Fin 2 → Nat) a + S512x2.size a ≤ S512x32.size a
  inb_S512x4096_S512x256_0_1792 : ∀ a, (![0, 1792] : Fin 2 → Nat) a + S512x256.size a ≤ S512x4096.size a
  packedbf16_S512x4096_S512x256_0_1792 : (Rect.unit (s := S512x4096) ![0, 1792] S512x256.size inb_S512x4096_S512x256_0_1792).PackedRows (EltTy.packing .bf16)
  inb_S512x512_S512x32_0_256 : ∀ a, (![0, 256] : Fin 2 → Nat) a + S512x32.size a ≤ S512x512.size a
  inb_S512x32_S512x2_0_16 : ∀ a, (![0, 16] : Fin 2 → Nat) a + S512x2.size a ≤ S512x32.size a
  inb_S512x4096_S512x256_0_2048 : ∀ a, (![0, 2048] : Fin 2 → Nat) a + S512x256.size a ≤ S512x4096.size a
  packedbf16_S512x4096_S512x256_0_2048 : (Rect.unit (s := S512x4096) ![0, 2048] S512x256.size inb_S512x4096_S512x256_0_2048).PackedRows (EltTy.packing .bf16)
  inb_S512x512_S512x32_0_288 : ∀ a, (![0, 288] : Fin 2 → Nat) a + S512x32.size a ≤ S512x512.size a
  inb_S512x32_S512x2_0_18 : ∀ a, (![0, 18] : Fin 2 → Nat) a + S512x2.size a ≤ S512x32.size a
  inb_S512x4096_S512x256_0_2304 : ∀ a, (![0, 2304] : Fin 2 → Nat) a + S512x256.size a ≤ S512x4096.size a
  packedbf16_S512x4096_S512x256_0_2304 : (Rect.unit (s := S512x4096) ![0, 2304] S512x256.size inb_S512x4096_S512x256_0_2304).PackedRows (EltTy.packing .bf16)
  inb_S512x512_S512x32_0_320 : ∀ a, (![0, 320] : Fin 2 → Nat) a + S512x32.size a ≤ S512x512.size a
  inb_S512x32_S512x2_0_20 : ∀ a, (![0, 20] : Fin 2 → Nat) a + S512x2.size a ≤ S512x32.size a
  inb_S512x4096_S512x256_0_2560 : ∀ a, (![0, 2560] : Fin 2 → Nat) a + S512x256.size a ≤ S512x4096.size a
  packedbf16_S512x4096_S512x256_0_2560 : (Rect.unit (s := S512x4096) ![0, 2560] S512x256.size inb_S512x4096_S512x256_0_2560).PackedRows (EltTy.packing .bf16)
  inb_S512x512_S512x32_0_352 : ∀ a, (![0, 352] : Fin 2 → Nat) a + S512x32.size a ≤ S512x512.size a
  inb_S512x32_S512x2_0_22 : ∀ a, (![0, 22] : Fin 2 → Nat) a + S512x2.size a ≤ S512x32.size a
  inb_S512x4096_S512x256_0_2816 : ∀ a, (![0, 2816] : Fin 2 → Nat) a + S512x256.size a ≤ S512x4096.size a
  packedbf16_S512x4096_S512x256_0_2816 : (Rect.unit (s := S512x4096) ![0, 2816] S512x256.size inb_S512x4096_S512x256_0_2816).PackedRows (EltTy.packing .bf16)
  inb_S512x512_S512x32_0_384 : ∀ a, (![0, 384] : Fin 2 → Nat) a + S512x32.size a ≤ S512x512.size a
  inb_S512x32_S512x2_0_24 : ∀ a, (![0, 24] : Fin 2 → Nat) a + S512x2.size a ≤ S512x32.size a
  inb_S512x4096_S512x256_0_3072 : ∀ a, (![0, 3072] : Fin 2 → Nat) a + S512x256.size a ≤ S512x4096.size a
  packedbf16_S512x4096_S512x256_0_3072 : (Rect.unit (s := S512x4096) ![0, 3072] S512x256.size inb_S512x4096_S512x256_0_3072).PackedRows (EltTy.packing .bf16)
  inb_S512x512_S512x32_0_416 : ∀ a, (![0, 416] : Fin 2 → Nat) a + S512x32.size a ≤ S512x512.size a
  inb_S512x32_S512x2_0_26 : ∀ a, (![0, 26] : Fin 2 → Nat) a + S512x2.size a ≤ S512x32.size a
  inb_S512x4096_S512x256_0_3328 : ∀ a, (![0, 3328] : Fin 2 → Nat) a + S512x256.size a ≤ S512x4096.size a
  packedbf16_S512x4096_S512x256_0_3328 : (Rect.unit (s := S512x4096) ![0, 3328] S512x256.size inb_S512x4096_S512x256_0_3328).PackedRows (EltTy.packing .bf16)
  inb_S512x512_S512x32_0_448 : ∀ a, (![0, 448] : Fin 2 → Nat) a + S512x32.size a ≤ S512x512.size a
  inb_S512x32_S512x2_0_28 : ∀ a, (![0, 28] : Fin 2 → Nat) a + S512x2.size a ≤ S512x32.size a
  inb_S512x4096_S512x256_0_3584 : ∀ a, (![0, 3584] : Fin 2 → Nat) a + S512x256.size a ≤ S512x4096.size a
  packedbf16_S512x4096_S512x256_0_3584 : (Rect.unit (s := S512x4096) ![0, 3584] S512x256.size inb_S512x4096_S512x256_0_3584).PackedRows (EltTy.packing .bf16)
  inb_S512x512_S512x32_0_480 : ∀ a, (![0, 480] : Fin 2 → Nat) a + S512x32.size a ≤ S512x512.size a
  inb_S512x32_S512x2_0_30 : ∀ a, (![0, 30] : Fin 2 → Nat) a + S512x2.size a ≤ S512x32.size a
  inb_S512x4096_S512x256_0_3840 : ∀ a, (![0, 3840] : Fin 2 → Nat) a + S512x256.size a ≤ S512x4096.size a
  packedbf16_S512x4096_S512x256_0_3840 : (Rect.unit (s := S512x4096) ![0, 3840] S512x256.size inb_S512x4096_S512x256_0_3840).PackedRows (EltTy.packing .bf16)
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  shapeCasts_S8192x4096_S4x2048x4096 : S8192x4096.ShapeCasts S4x2048x4096
  dot_S512x4096_S512x4096_S512x512_1_1_0_0_n_n_wf : DotDims.WF S512x4096 S512x4096 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .bf16 = 32 ∨ (Rect.block (s := S8192x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x512.size a
  hwx0_1 : ∀ i : grid0.Coords, EltTy.bits .i32 = 32 ∨ (Rect.block (s := S4096x512) S512x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x32.size a ≤ S4096x32.size a
  hwx0_2 : ∀ i : grid0.Coords, EltTy.bits .f32 = 32 ∨ (Rect.block (s := S4096x32) S512x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x32.size a ≤ S4096x32.size a
  hwx0_3 : ∀ i : grid0.Coords, EltTy.bits .f32 = 32 ∨ (Rect.block (s := S4096x32) S512x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x4096.size a
  hwx0_4 : ∀ i : grid0.Coords, EltTy.bits .f32 = 32 ∨ (Rect.block (s := S1x4096) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S8192x4096.size a
  hwx0_5 : ∀ i : grid0.Coords, EltTy.bits .f32 = 32 ∨ (Rect.block (s := S8192x4096) S512x512.size (cc0_transform_5 i) (hinb0_5 i)).WholeWords (EltTy.packing .f32)

variable [Facts₀]

def dot_S512x4096_S512x4096_S512x512_1_1_0_0_n_n : DotDims S512x4096 S512x4096 S512x512 where
  lhsContracting := [1]
  rhsContracting := [1]
  lhsNonContracting := [0]
  rhsNonContracting := [0]
  lhsBatch := []
  rhsBatch := []
  wf := dot_S512x4096_S512x4096_S512x512_1_1_0_0_n_n_wf

abbrev win0_0 : Pipeline.Window sig grid0 :=
  Pipeline.Window.ofSpec (Memref.whole main_v1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S512x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x512 : Shape := ⟨2, ![4096, 512]⟩
abbrev S4096x32 : Shape := ⟨2, ![4096, 32]⟩
abbrev S4096 : Shape := ⟨1, ![4096]⟩
abbrev S8 : Shape := ⟨1, ![8]⟩
abbrev S_ : Shape := ⟨0, ![]⟩
abbrev S4096x512x1 : Shape := ⟨3, ![4096, 512, 1]⟩
abbrev S1x1x8 : Shape := ⟨3, ![1, 1, 8]⟩
abbrev S4096x512x8 : Shape := ⟨3, ![4096, 512, 8]⟩
abbrev S4096x4096 : Shape := ⟨2, ![4096, 4096]⟩
abbrev S4096x32x128 : Shape := ⟨3, ![4096, 32, 128]⟩
abbrev S1x1x4096 : Shape := ⟨3, ![1, 1, 4096]⟩

abbrev nBuf : Space → Nat
  | .hbm => 29
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x512, .i32⟩
  | .hbm, ⟨2, _⟩ => ⟨S4096x32, .f32⟩
  | .hbm, ⟨3, _⟩ => ⟨S4096x32, .f32⟩
  | .hbm, ⟨4, _⟩ => ⟨S4096, .f32⟩
  | .hbm, ⟨5, _⟩ => ⟨S8, .i32⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S4096x512x1, .i32⟩
  | .hbm, ⟨10, _⟩ => ⟨S1x1x8, .i32⟩
  | .hbm, ⟨11, _⟩ => ⟨S4096x512x8, .i32⟩
  | .hbm, ⟨12, _⟩ => ⟨S4096x512x8, .i32⟩
  | .hbm, ⟨13, _⟩ => ⟨S4096x512x8, .i32⟩
  | .hbm, ⟨14, _⟩ => ⟨S_, .i32⟩
  | .hbm, ⟨15, _⟩ => ⟨S4096x512x8, .i32⟩
  | .hbm, ⟨16, _⟩ => ⟨S4096x512x8, .i32⟩
  | .hbm, ⟨17, _⟩ => ⟨S4096x4096, .i32⟩
  | .hbm, ⟨18, _⟩ => ⟨S4096x4096, .f32⟩
  | .hbm, ⟨19, _⟩ => ⟨S4096x32x128, .f32⟩
  | .hbm, ⟨20, _⟩ => ⟨S4096x4096, .f32⟩
  | .hbm, ⟨21, _⟩ => ⟨S4096x32x128, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4x2048x4096, .f32⟩
  | .hbm, ⟨26, _⟩ => ⟨S1x1x4096, .f32⟩
  | .hbm, ⟨27, _⟩ => ⟨S4x2048x4096, .f32⟩
  | .hbm, ⟨28, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S4096x512_S4096x512x1_0_1 : S4096x512.BroadcastsInDim S4096x512x1 (![0, 1] : Fin 2 → Fin S4096x512x1.rank)
  bcast_S8_S1x1x8_2 : S8.BroadcastsInDim S1x1x8 (![2] : Fin 1 → Fin S1x1x8.rank)
  bcast_S4096x512x1_S4096x512x8_0_1_2 : S4096x512x1.BroadcastsInDim S4096x512x8 (![0, 1, 2] : Fin 3 → Fin S4096x512x8.rank)
  bcast_S1x1x8_S4096x512x8_0_1_2 : S1x1x8.BroadcastsInDim S4096x512x8 (![0, 1, 2] : Fin 3 → Fin S4096x512x8.rank)
  bcast_S_S4096x512x8 : S_.BroadcastsInDim S4096x512x8 (![] : Fin 0 → Fin S4096x512x8.rank)
  shapeCasts_S4096x512x8_S4096x4096 : S4096x512x8.ShapeCasts S4096x4096
  bcast_S4096x32_S4096x32x128_0_1 : S4096x32.BroadcastsInDim S4096x32x128 (![0, 1] : Fin 2 → Fin S4096x32x128.rank)
  shapeCasts_S4096x32x128_S4096x4096 : S4096x32x128.ShapeCasts S4096x4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Spec.lean ====
/-
  The mathematics both programs compute, stated once over literal shapes and the extended reals.

  A packed word holds eight 4-bit fields, least significant first: field `j` of `w` is `(w >> 4 j) & 15` (the shift
  arithmetic; the mask clears whatever sign bits it brought in). The dequantized weight of output feature `o` and
  input feature `k` is `scale[o, k / 128] * field (k % 8) of word[o, k / 8] + shift[o, k / 128]`: 128 consecutive
  input features share one scale and one shift, 8 consecutive ones share one word. The layer's result at
  `(b, s, o)` is `(∑ k, x[b, s, k] * weight o k) + bias[o]`.
-/
import Idealize.ShloMosaic.PureOps.Ideal
import Idealize.ShloMosaic.Lib.ValueIdx

noncomputable section

namespace Cert.Dequant

open Idealize.ShloMosaic Idealize.ShloMosaic.ValueIdx

/-- Field `j` of a packed word: the word shifted right arithmetically by `4 j` bits, then masked with 15. -/
def field (w : BitVec 32) (j : Nat) : BitVec 32 :=
  IntOp.andi (IntOp.shrsi .vector w (IntOp.muli (BitVec.ofNat 32 j) 4#32)) 15#32

/-- On 32-bit words the arithmetic right shift is one function whichever unit performs it: below the width it is the
    shift, at the width or beyond it is the word of sign bits on every unit. -/
theorem shrsi_host (x y : BitVec 32) : IntOp.shrsi .host x y = IntOp.shrsi .vector x y := by
  unfold IntOp.shrsi IntOp.cornerWord
  rfl

/-- The dequantized weight of output feature `o` and input feature `k`. -/
def weight (wq : (⟨2, ![4096, 512]⟩ : Shape).Idx → BitVec 32) (sc sh : (⟨2, ![4096, 32]⟩ : Shape).Idx → EReal)
    (o k : Fin 4096) : EReal :=
  sc (ix2 o ⟨k.val / 128, by have := k.isLt; omega⟩)
      * FloatOps.sitofp (F := Ideal) .f32 (field (wq (ix2 o ⟨k.val / 8, by have := k.isLt; omega⟩)) (k.val % 8))
    + sh (ix2 o ⟨k.val / 128, by have := k.isLt; omega⟩)

/-- The layer's result: every row of `x` against every row of dequantized weights, plus the output feature's bias. -/
def result (x : (⟨3, ![4, 2048, 4096]⟩ : Shape).Idx → EReal) (wq : (⟨2, ![4096, 512]⟩ : Shape).Idx → BitVec 32)
    (sc sh : (⟨2, ![4096, 32]⟩ : Shape).Idx → EReal) (bias : (⟨1, ![4096]⟩ : Shape).Idx → EReal) :
    (⟨3, ![4, 2048, 4096]⟩ : Shape).Idx → EReal :=
  fun i => (∑ k : Fin 4096, x (ix3 (i 0) (i 1) k) * weight wq sc sh (i 2) k) + bias (ix1 (i 2))

end Cert.Dequant

end
-- ==== Proof.RefResult.lean ====
/-
  The reference program computes the layer's result as stated in the specification: reading its last stage at an
  index, stage by stage, gives the sum over the input features of the activation times the dequantized weight, plus
  the bias. The only arithmetic is on the flattened offset `o * 4096 + k` with `o, k < 4096`: its quotient by 4096
  is `o`, its quotient by 8 modulo 512 is `k / 8`, its quotient by 128 modulo 32 is `k / 128`, and its remainder
  modulo 8 is `k % 8`.
-/
import proofs.«425439_j44959717655209_3_alg».proof.Proof.Gen.ReferenceIdeal.Read
import proofs.«425439_j44959717655209_3_alg».proof.Proof.Spec
import Idealize.ShloMosaic.PureOps.Ideal
import Idealize.ShloMosaic.Lib.ValueIdx

noncomputable section

namespace Cert.ReferenceIdeal.RefValue

open Cert.ReferenceIdeal Cert.ReferenceIdeal.Read Idealize.ShloMosaic Idealize.ShloMosaic.ValueIdx

/-- The word the reference reads for the weight `(o, k)` is the word `k / 8` of row `o`. -/
theorem word_idx (o k : Fin 4096) :
    idx_main_v3 (idx_main_v5 (idx_main_v10 (ix2 o k))) = ix2 o ⟨k.val / 8, by have := k.isLt; omega⟩ := by
  funext a
  match a with
  | ⟨0, _⟩ => exact Fin.ext (by have ho := o.isLt; have hk := k.isLt; show (o.val * 4096 + k.val) / 4096 = o.val; omega)
  | ⟨1, _⟩ => exact Fin.ext (by have ho := o.isLt; have hk := k.isLt; show (o.val * 4096 + k.val) / 8 % 512 = k.val / 8; omega)

/-- The field the reference takes of that word is field `k % 8`. -/
theorem field_idx (o k : Fin 4096) :
    ((idx_main_v4 (idx_main_v6 (idx_main_v10 (ix2 o k)))) 0).val = k.val % 8 := by
  have ho := o.isLt; have hk := k.isLt
  show (o.val * 4096 + k.val) % 8 = k.val % 8
  omega

/-- The scale the reference reads for the weight `(o, k)` is the one of group `k / 128` of row `o`. -/
theorem scale_idx (o k : Fin 4096) :
    idx_main_v12 (idx_main_v13 (ix2 o k)) = ix2 o ⟨k.val / 128, by have := k.isLt; omega⟩ := by
  funext a
  match a with
  | ⟨0, _⟩ => exact Fin.ext (by have ho := o.isLt; have hk := k.isLt; show (o.val * 4096 + k.val) / 4096 = o.val; omega)
  | ⟨1, _⟩ => exact Fin.ext (by have ho := o.isLt; have hk := k.isLt; show (o.val * 4096 + k.val) / 128 % 32 = k.val / 128; omega)

/-- The shift the reference reads for the weight `(o, k)` is the one of group `k / 128` of row `o`. -/
theorem shift_idx (o k : Fin 4096) :
    idx_main_v14 (idx_main_v15 (ix2 o k)) = ix2 o ⟨k.val / 128, by have := k.isLt; omega⟩ := by
  funext a
  match a with
  | ⟨0, _⟩ => exact Fin.ext (by have ho := o.isLt; have hk := k.isLt; show (o.val * 4096 + k.val) / 4096 = o.val; omega)
  | ⟨1, _⟩ => exact Fin.ext (by have ho := o.isLt; have hk := k.isLt; show (o.val * 4096 + k.val) / 128 % 32 = k.val / 128; omega)

/-- The reference's dequantized matrix at `(o, k)` is the specification's weight. -/
theorem weight_eq (x1 : (⟨S4096x512, .i32⟩ : BufTy).Contents (Elt Ideal))
    (x2 x3 : (⟨S4096x32, .f32⟩ : BufTy).Contents (Elt Ideal)) (o k : Fin 4096) :
    val_main_v17 (F := Ideal) x1 x2 x3 (ix2 o k) = Cert.Dequant.weight x1 x2 x3 o k := by
  rw [val_main_v17_apply, val_main_v16_apply, val_main_v15_apply, val_main_v14_apply, val_main_v13_apply,
    val_main_v12_apply, val_main_v11_apply, val_main_v10_apply, val_main_v9_apply, val_main_v8_apply,
    val_main_c_0_apply, val_main_v7_apply, val_main_v6_apply, val_main_v5_apply, val_main_v4_apply,
    val_main_v3_apply, val_main_v2_apply, val_main_v1_apply, val_main_v0_apply, val_main_c_apply,
    Cert.Dequant.shrsi_host, word_idx, field_idx, scale_idx, shift_idx]
  rfl

/-- The reference's result is the specification's. -/
theorem reference_eq (x0 : (⟨Cert.ReferenceIdeal.S4x2048x4096, .f32⟩ : BufTy).Contents (Elt Ideal))
    (x1 : (⟨Cert.ReferenceIdeal.S4096x512, .i32⟩ : BufTy).Contents (Elt Ideal))
    (x2 x3 : (⟨Cert.ReferenceIdeal.S4096x32, .f32⟩ : BufTy).Contents (Elt Ideal))
    (x4 : (⟨Cert.ReferenceIdeal.S4096, .f32⟩ : BufTy).Contents (Elt Ideal)) :
    Cert.ReferenceIdeal.Read.val_main_v21 (F := Ideal) x0 x1 x2 x3 x4 = Cert.Dequant.result x0 x1 x2 x3 x4 := by
  funext i
  obtain ⟨a, b, c, rfl⟩ : ∃ (a : Fin 4) (b : Fin 2048) (c : Fin 4096), i = ix3 a b c :=
    ⟨i 0, i 1, i 2, eq_ix3 i⟩
  rw [val_main_v21_apply, val_main_v18_apply, val_main_v20_apply, val_main_v19_apply]
  have eb : idx_main_v19 (idx_main_v20 (ix3 a b c)) = ix1 c := by
    funext d
    match d with
    | ⟨0, _⟩ => rfl
  have es : ∀ k : Fin 4096,
      x0 (lidx_main_v18 (ix3 a b c) k) * val_main_v17 (F := Ideal) x1 x2 x3 (ridx_main_v18 (ix3 a b c) k)
      = x0 (ix3 a b k) * Cert.Dequant.weight x1 x2 x3 c k := by
    intro k
    have el : lidx_main_v18 (ix3 a b c) k = ix3 a b k := by
      funext d
      match d with
      | ⟨0, _⟩ => rfl
      | ⟨1, _⟩ => rfl
      | ⟨2, _⟩ => rfl
    have er : ridx_main_v18 (ix3 a b c) k = ix2 c k := by
      funext d
      match d with
      | ⟨0, _⟩ => rfl
      | ⟨1, _⟩ => rfl
    rw [el, er, weight_eq]
  rw [eb, Finset.sum_congr rfl fun k _ => es k]
  rfl

end Cert.ReferenceIdeal.RefValue

end
-- ==== Proof.Payload.lean ====
/-
  The kernel body's arithmetic, read at an index.

  One dequantization chunk takes a 512 × 32 block of packed words. Each word is spread over eight lanes, lane `j` is
  shifted right by `4 j` bits and masked with 15, and the 512 × 32 × 8 result is laid out as 512 × 256, so column `q`
  holds field `q % 8` of word `q / 8`. The field is converted to a float, multiplied by the scale of its group of 128
  columns and the group's shift is added; the narrowing to bf16 that follows is the identity at the ideal values. Hence
  entry `(r, q)` of the chunk is `scale[r, q / 128] * field (q % 8) of word[r, q / 8] + shift[r, q / 128]`.

  The point's product contracts the second axis of two 512 × 4096 blocks into a zero accumulator and adds a 1 × 512 row
  to every row of the result, so entry `(p, q)` is `(∑ k, x[p, k] * wd[q, k]) + row[0, q]`.
-/
import proofs.«425439_j44959717655209_3_alg».proof.Proof.Gen.KernelIdeal.Skeleton
import proofs.«425439_j44959717655209_3_alg».proof.Proof.Spec
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-- A packed word spread over its eight lanes: lane `j` of group `g` in row `r` reads word `(r, g)`. -/
theorem spread_apply (w : Vec Ideal S512x32 .i32) (r : Fin 512) (g : Fin 32) (j : Fin 8) :
    broadcastTo S512x32x8 (shapeCast S512x32x1 w shapeCasts_S512x32_S512x32x1) broadcasts_S512x32x1_S512x32x8 (ix3 r g j)
      = w (ix2 r g) := by
  refine (broadcastTo_apply _ broadcasts_S512x32x1_S512x32x8 (ix3 r g j) (ix3 r g (0 : Fin 1)) (fun a => match a with
    | ⟨0, _⟩ => by show r.val = if (512 : Nat) = 1 then 0 else r.val; rw [if_neg (by decide)]
    | ⟨1, _⟩ => by show g.val = if (32 : Nat) = 1 then 0 else g.val; rw [if_neg (by decide)]
    | ⟨2, _⟩ => by show 0 = if (1 : Nat) = 1 then 0 else j.val; rw [if_pos rfl])).trans ?_
  exact shapeCast_apply w shapeCasts_S512x32_S512x32x1 (ix3 r g (0 : Fin 1)) (ix2 r g)
    (by rw [Shape.rowMajor_val_two, Shape.rowMajor_val_three]; show r.val * 32 + g.val = (r.val * 32 + g.val) * 1 + 0; omega)

/-- One lane of the unpacked block: the word of its group shifted right by four times the lane number, masked with 15. -/
theorem lanes_apply (w : Vec Ideal S512x32 .i32) (r : Fin 512) (g : Fin 32) (j : Fin 8) :
    andi (shrsi (broadcastTo S512x32x8 (shapeCast S512x32x1 w shapeCasts_S512x32_S512x32x1) broadcasts_S512x32x1_S512x32x8)
        (muli (iota .tc S512x32x8 32 [2] iota_S512x32x8_d2_w32) (broadcast S512x32x8 4#32)))
      (broadcast S512x32x8 15#32) (ix3 r g j)
      = Cert.Dequant.field (w (ix2 r g)) j.val := by
  show IntOp.andi (IntOp.shrsi .vector
      (broadcastTo S512x32x8 (shapeCast S512x32x1 w shapeCasts_S512x32_S512x32x1) broadcasts_S512x32x1_S512x32x8 (ix3 r g j))
      (IntOp.muli (iota .tc S512x32x8 32 [2] iota_S512x32x8_d2_w32 (ix3 r g j)) 4#32)) 15#32 = _
  rw [spread_apply, iota_single_apply]
  rfl

/-- The unpacked block reshaped to 512 × 256: column `q` is lane `q % 8` of group `q / 8`. -/
theorem unpack_apply (w : Vec Ideal S512x32 .i32) (r : Fin 512) (q : Fin 256) :
    shapeCast S512x256
        (andi (shrsi (broadcastTo S512x32x8 (shapeCast S512x32x1 w shapeCasts_S512x32_S512x32x1) broadcasts_S512x32x1_S512x32x8)
            (muli (iota .tc S512x32x8 32 [2] iota_S512x32x8_d2_w32) (broadcast S512x32x8 4#32)))
          (broadcast S512x32x8 15#32))
        shapeCasts_S512x32x8_S512x256 (ix2 r q)
      = Cert.Dequant.field (w (ix2 r ⟨q.val / 8, by have := q.isLt; omega⟩)) (q.val % 8) := by
  refine (shapeCast_apply _ shapeCasts_S512x32x8_S512x256 (ix2 r q)
    (ix3 r (⟨q.val / 8, by have := q.isLt; omega⟩ : Fin 32) (⟨q.val % 8, Nat.mod_lt _ (by decide)⟩ : Fin 8))
    (by rw [Shape.rowMajor_val_two, Shape.rowMajor_val_three]
        show (r.val * 32 + q.val / 8) * 8 + q.val % 8 = r.val * 256 + q.val
        omega)).trans ?_
  exact lanes_apply w r _ _

/-- A per-group column (one scale or one shift for each 128 consecutive columns) broadcast over its 128 lanes and
    reshaped to 512 × 256: column `q` reads group `q / 128`. -/
theorem group_apply (s : Vec Ideal S512x2 .f32) (r : Fin 512) (q : Fin 256) :
    shapeCast S512x256
        (broadcastTo S512x2x128
          (shapeCast S512x2x1 (shapeCast S512x2x1 s shapeCasts_S512x2_S512x2x1) shapeCasts_S512x2x1_S512x2x1)
          broadcasts_S512x2x1_S512x2x128)
        shapeCasts_S512x2x128_S512x256 (ix2 r q)
      = s (ix2 r ⟨q.val / 128, by have := q.isLt; omega⟩) := by
  refine (shapeCast_apply _ shapeCasts_S512x2x128_S512x256 (ix2 r q)
    (ix3 r (⟨q.val / 128, by have := q.isLt; omega⟩ : Fin 2) (⟨q.val % 128, Nat.mod_lt _ (by decide)⟩ : Fin 128))
    (by rw [Shape.rowMajor_val_two, Shape.rowMajor_val_three]
        show (r.val * 2 + q.val / 128) * 128 + q.val % 128 = r.val * 256 + q.val
        omega)).trans ?_
  refine (broadcastTo_apply _ broadcasts_S512x2x1_S512x2x128 _
    (ix3 r (⟨q.val / 128, by have := q.isLt; omega⟩ : Fin 2) (0 : Fin 1)) (fun a => match a with
    | ⟨0, _⟩ => by show r.val = if (512 : Nat) = 1 then 0 else r.val; rw [if_neg (by decide)]
    | ⟨1, _⟩ => by show q.val / 128 = if (2 : Nat) = 1 then 0 else q.val / 128; rw [if_neg (by decide)]
    | ⟨2, _⟩ => by show 0 = if (1 : Nat) = 1 then 0 else q.val % 128; rw [if_pos rfl])).trans ?_
  rw [shapeCast_self]
  exact shapeCast_apply s shapeCasts_S512x2_S512x2x1 _ (ix2 r ⟨q.val / 128, by have := q.isLt; omega⟩)
    (by rw [Shape.rowMajor_val_two, Shape.rowMajor_val_three]; show r.val * 2 + q.val / 128 = (r.val * 2 + q.val / 128) * 1 + 0; omega)

/-- One dequantization chunk at an index: the group's scale times the column's 4-bit field, plus the group's shift
    (narrowing to bf16 changes nothing at the ideal values). -/
theorem chunk_apply (w : Vec Ideal S512x32 .i32) (s b : Vec Ideal S512x2 .f32) (r : Fin 512) (q : Fin 256) :
    k0_pay3 (F := Ideal) w s b (ix2 r q)
      = s (ix2 r ⟨q.val / 128, by have := q.isLt; omega⟩)
          * FloatOps.sitofp (F := Ideal) .f32 (Cert.Dequant.field (w (ix2 r ⟨q.val / 8, by have := q.isLt; omega⟩)) (q.val % 8))
        + b (ix2 r ⟨q.val / 128, by have := q.isLt; omega⟩) := by
  unfold k0_pay3
  refine (congrFun (shapeCast_self _ shapeCasts_S512x256_S512x256) (ix2 r q)).trans ?_
  refine (truncf_apply _ bitsLt_bf16_f32 (ix2 r q)).trans ?_
  refine (addf_apply _ _ (ix2 r q)).trans ?_
  refine congrArg₂ (· + ·) ((mulf_apply _ _ (ix2 r q)).trans (congrArg₂ (· * ·) (group_apply s r q) ?_)) (group_apply b r q)
  exact congrArg (FloatOps.sitofp (F := Ideal) .f32) (unpack_apply w r q)

/-! The product's operand indices. The record contracts axis 1 of both operands; the left operand's free axis 0 is the
    result's axis 0, the right operand's free axis 0 is the result's axis 1. -/

theorem lhs_tile_0 (i : S512x512.Idx) (c : dot_S512x4096_S512x4096_S512x512_1_1_0_0_n_n.contr.Idx) :
    (dot_S512x4096_S512x4096_S512x512_1_1_0_0_n_n.lhsIdx i c 0).val = (i 0).val := by
  unfold DotDims.lhsIdx
  rw [dif_neg (show ¬(0 : Fin S512x4096.rank) ∈ dot_S512x4096_S512x4096_S512x512_1_1_0_0_n_n.lhsBatch by decide), dif_pos (show (0 : Fin S512x4096.rank) ∈ dot_S512x4096_S512x4096_S512x512_1_1_0_0_n_n.lhsNonContracting by decide)]
  rfl
theorem lhs_tile_1 (i : S512x512.Idx) (c : dot_S512x4096_S512x4096_S512x512_1_1_0_0_n_n.contr.Idx) :
    (dot_S512x4096_S512x4096_S512x512_1_1_0_0_n_n.lhsIdx i c 1).val = (c ⟨0, by decide⟩).val :=
  dot_S512x4096_S512x4096_S512x512_1_1_0_0_n_n.lhsIdx_val_of_single rfl i c
theorem rhs_tile_0 (i : S512x512.Idx) (c : dot_S512x4096_S512x4096_S512x512_1_1_0_0_n_n.contr.Idx) :
    (dot_S512x4096_S512x4096_S512x512_1_1_0_0_n_n.rhsIdx i c 0).val = (i 1).val := by
  unfold DotDims.rhsIdx
  rw [dif_neg (show ¬(0 : Fin S512x4096.rank) ∈ dot_S512x4096_S512x4096_S512x512_1_1_0_0_n_n.rhsBatch by decide), dif_pos (show (0 : Fin S512x4096.rank) ∈ dot_S512x4096_S512x4096_S512x512_1_1_0_0_n_n.rhsNonContracting by decide)]
  rfl
theorem rhs_tile_1 (i : S512x512.Idx) (c : dot_S512x4096_S512x4096_S512x512_1_1_0_0_n_n.contr.Idx) :
    (dot_S512x4096_S512x4096_S512x512_1_1_0_0_n_n.rhsIdx i c 1).val = (c ⟨0, by decide⟩).val :=
  dot_S512x4096_S512x4096_S512x512_1_1_0_0_n_n.rhsIdx_val_of_single rfl i c

/-- The product into a zero accumulator at an index: row `p` of the left block against row `q` of the right block. -/
theorem product_apply (x wd : Vec Ideal S512x4096 .bf16) (p q : Fin 512) :
    matmul (F := Ideal) (φ₁ := .bf16) (φ₂ := .bf16) dot_S512x4096_S512x4096_S512x512_1_1_0_0_n_n none x wd (constant (F := Ideal) S512x512 .f32 0x00000000#32) (ix2 p q)
      = ∑ k : Fin 4096, x (ix2 p k) * wd (ix2 q k) := by
  simp only [matmul]
  rw [Ideal.matmul_constant_zero_apply, ← Equiv.sum_comp (contrEquiv1 dot_S512x4096_S512x4096_S512x512_1_1_0_0_n_n 4096 rfl rfl).symm]
  refine Finset.sum_congr rfl fun k _ => ?_
  have hk := contrEquiv1_symm_val dot_S512x4096_S512x4096_S512x512_1_1_0_0_n_n 4096 rfl rfl k
  have el : dot_S512x4096_S512x4096_S512x512_1_1_0_0_n_n.lhsIdx (ix2 p q) ((contrEquiv1 dot_S512x4096_S512x4096_S512x512_1_1_0_0_n_n 4096 rfl rfl).symm k) = ix2 p k := funext fun a => Fin.ext (by
    match a with
    | ⟨0, _⟩ => exact lhs_tile_0 _ _
    | ⟨1, _⟩ => exact (lhs_tile_1 _ _).trans hk)
  have er : dot_S512x4096_S512x4096_S512x512_1_1_0_0_n_n.rhsIdx (ix2 p q) ((contrEquiv1 dot_S512x4096_S512x4096_S512x512_1_1_0_0_n_n 4096 rfl rfl).symm k) = ix2 q k := funext fun a => Fin.ext (by
    match a with
    | ⟨0, _⟩ => exact rhs_tile_0 _ _
    | ⟨1, _⟩ => exact (rhs_tile_1 _ _).trans hk)
  rw [el, er]

/-- A 1 × 512 row broadcast down 512 rows: entry `(p, q)` reads the row's entry `q`. -/
theorem row_apply (bs : Vec Ideal S1x512 .f32) (p q : Fin 512) :
    broadcastTo S512x512 (shapeCast S1x512 bs shapeCasts_S1x512_S1x512) broadcasts_S1x512_S512x512 (ix2 p q) = bs (ix2 0 q) := by
  rw [shapeCast_self]
  exact broadcastTo_apply bs broadcasts_S1x512_S512x512 (ix2 p q) (ix2 (0 : Fin 1) q) (fun a => match a with
    | ⟨0, _⟩ => by show 0 = if (1 : Nat) = 1 then 0 else p.val; rw [if_pos rfl]
    | ⟨1, _⟩ => by show q.val = if (512 : Nat) = 1 then 0 else q.val; rw [if_neg (by decide)])

/-- The point's product at an index: the sum over the 4096 input features of the left row's entry times the right
    row's entry, plus the row's entry for the output feature. -/
theorem tile_apply (x wd : Vec Ideal S512x4096 .bf16) (bs : Vec Ideal S1x512 .f32) (p q : Fin 512) :
    k0_pay2 (F := Ideal) x wd bs (ix2 p q) = (∑ k : Fin 4096, x (ix2 p k) * wd (ix2 q k)) + bs (ix2 0 q) := by
  unfold k0_pay2
  refine (addf_apply _ _ (ix2 p q)).trans ?_
  refine congrArg₂ (· + ·) ?_ (row_apply bs p q)
  rw [shapeCast_self]
  exact product_apply x wd p q

end Cert.KernelIdeal.Payload

end
-- ==== Proof.Cases.lean ====
/-
  What each of the body's two cases leaves in the buffer the kernel keeps between points and in the output's buffer.

  At the first point of a column tile the body dequantizes the tile's 512 x 4096 weights in sixteen chunks of 256
  columns. Chunk `n` reads words `32 n … 32 n + 31`, scales and shifts `2 n, 2 n + 1` of every row, and stores a
  512 x 256 piece over columns `256 n … 256 n + 255` of the kept buffer. The sixteen chunks are printed with their
  operations grouped differently, but each is the first chunk's function of its own slices (the bridges below hold by
  unfolding), and that function at `(r, q)` is entry `(r, 256 n + q)` of one 512 x 4096 function of the blocks, the
  dequantized weight block: `(256 n + q) / 128 = 2 n + q / 128`, `(256 n + q) / 8 = 32 n + q / 8`,
  `(256 n + q) % 8 = q % 8`. The pieces tile the buffer, so it ends at that block. The product then reads the buffer
  back whole. At the other points nothing is stored into the kept buffer and the product reads what it holds.
-/
import proofs.«425439_j44959717655209_3_alg».proof.Proof.Gen.KernelIdeal.Frame
import proofs.«425439_j44959717655209_3_alg».proof.Proof.Spec
import proofs.«425439_j44959717655209_3_alg».proof.Proof.Payload
import Idealize.ShloMosaic.Lib.Pipeline.Value
import Idealize.ShloMosaic.Lib.ValueIdx
import Idealize.ShloMosaic.Lib.Tactic

set_option maxRecDepth 16384

noncomputable section

namespace Cert.KernelIdeal.Cases

open Idealize.ShloMosaic Idealize.ShloMosaic.TcCoe Idealize.SL.Sem Idealize.ShloMosaic.Tactic Idealize.ShloMosaic.ValueIdx
open Cert.KernelIdeal Cert.KernelIdeal.Gen Cert.KernelIdeal.Payload

/-- The zero offsets of a whole-block access, however they are spelt. -/
theorem hz : (![0, 0] : Fin 2 → Nat) = fun _ => 0 := funext fun a => by fin_cases a <;> rfl

/-! ## Every chunk's payload is the first chunk's function of its own slices -/

section Bridges
variable {F : FTy → Type} [FloatOps F]
theorem pay_c1 (w : Vec F S512x32 .i32) (s b : Vec F S512x2 .f32) : k0_pay6 (k0_pay4 w) b (k0_pay5 s) = k0_pay3 w s b := rfl
theorem pay_c2 (w : Vec F S512x32 .i32) (s b : Vec F S512x2 .f32) : k0_pay7 w s b = k0_pay3 w s b := rfl
theorem pay_c3 (w : Vec F S512x32 .i32) (s b : Vec F S512x2 .f32) : k0_pay9 w (iota .tc S512x32x8 32 [2] iota_S512x32x8_d2_w32) k0_pay8 s b = k0_pay3 w s b := rfl
theorem pay_c4 (w : Vec F S512x32 .i32) (s b : Vec F S512x2 .f32) : k0_pay13 (k0_pay10 w) (k0_pay11 s) (k0_pay12 b) = k0_pay3 w s b := rfl
theorem pay_c5 (w : Vec F S512x32 .i32) (s b : Vec F S512x2 .f32) : k0_pay14 w s b = k0_pay3 w s b := rfl
theorem pay_c6 (w : Vec F S512x32 .i32) (s b : Vec F S512x2 .f32) : k0_pay17 (k0_pay15 w) k0_pay16 s b = k0_pay3 w s b := rfl
theorem pay_c7 (w : Vec F S512x32 .i32) (s b : Vec F S512x2 .f32) : k0_pay19 (k0_pay18 w s b) = k0_pay3 w s b := rfl
theorem pay_c8 (w : Vec F S512x32 .i32) (s b : Vec F S512x2 .f32) : k0_pay20 w s b = k0_pay3 w s b := rfl
theorem pay_c9 (w : Vec F S512x32 .i32) (s b : Vec F S512x2 .f32) : k0_pay22 (k0_pay21 w) s b = k0_pay3 w s b := rfl
theorem pay_c10 (w : Vec F S512x32 .i32) (s b : Vec F S512x2 .f32) : k0_pay23 w s b = k0_pay3 w s b := rfl
theorem pay_c11 (w : Vec F S512x32 .i32) (s b : Vec F S512x2 .f32) : k0_pay24 w s b = k0_pay3 w s b := rfl
theorem pay_c12 (w : Vec F S512x32 .i32) (s b : Vec F S512x2 .f32) : k0_pay27 (k0_pay25 w) b (k0_pay26 s) = k0_pay3 w s b := rfl
theorem pay_c13 (w : Vec F S512x32 .i32) (s b : Vec F S512x2 .f32) : k0_pay28 w s b = k0_pay3 w s b := rfl
theorem pay_c14 (w : Vec F S512x32 .i32) (s b : Vec F S512x2 .f32) : k0_pay31 k0_pay29 (k0_pay30 w) s b = k0_pay3 w s b := rfl
theorem pay_c15 (w : Vec F S512x32 .i32) (s b : Vec F S512x2 .f32) : k0_pay1 (k0_pay32 b) (k0_pay33 w s) = k0_pay3 w s b := rfl
end Bridges

/-! ## The dequantized weight block -/

/-- The 512 x 4096 block of dequantized weights a block of packed words, scales and shifts determines: entry
    `(r, k)` is `scale[r, k / 128] * field (k % 8) of word[r, k / 8] + shift[r, k / 128]`. -/
def wblk (x1 : Vec Ideal S512x512 .i32) (x2 x3 : Vec Ideal S512x32 .f32) : Vec Ideal S512x4096 .bf16 :=
  fun y => x2 (ix2 (y 0) ⟨(y 1).val / 128, by have := (y 1).isLt; show (y 1).val / 128 < 32; have h : (y 1).val < 4096 := this; omega⟩)
      * FloatOps.sitofp (F := Ideal) .f32 (Cert.Dequant.field (x1 (ix2 (y 0) ⟨(y 1).val / 8, by have h : (y 1).val < 4096 := (y 1).isLt; show (y 1).val / 8 < 512; omega⟩)) ((y 1).val % 8))
    + x3 (ix2 (y 0) ⟨(y 1).val / 128, by have h : (y 1).val < 4096 := (y 1).isLt; show (y 1).val / 128 < 32; omega⟩)

/-- Chunk `c` (columns `256 c … 256 c + 255`) of the weight block is the chunk function of words `32 c …`, scales and
    shifts `2 c, 2 c + 1`: `(256 c + q) / 128 = 2 c + q / 128`, `(256 c + q) / 8 = 32 c + q / 8`, `(256 c + q) % 8 = q % 8`. -/
theorem chunk_ld (x1 : Vec Ideal S512x512 .i32) (x2 x3 : Vec Ideal S512x32 .f32) (c o1 o2 o8 : Nat)
    (h1 : o1 = 32 * c) (h2 : o2 = 2 * c) (h8 : o8 = 256 * c)
    (inb1 : ∀ a, ![0, o1] a + S512x32.size a ≤ S512x512.size a) (inb2 : ∀ a, ![0, o2] a + S512x2.size a ≤ S512x32.size a)
    (inb8 : ∀ a, ![0, o8] a + S512x256.size a ≤ S512x4096.size a) (x : S512x256.Idx) :
    k0_pay3 (F := Ideal) (View.ld x1 (Rect.unit (s := S512x512) ![0, o1] S512x32.size inb1)) (View.ld x2 (Rect.unit (s := S512x32) ![0, o2] S512x2.size inb2))
        (View.ld x3 (Rect.unit (s := S512x32) ![0, o2] S512x2.size inb2)) x
      = wblk x1 x2 x3 ((Rect.unit (s := S512x4096) ![0, o8] S512x256.size inb8).emb x) := by
  subst h1 h2 h8
  obtain ⟨r, q, rfl⟩ : ∃ (r : Fin 512) (q : Fin 256), x = ix2 r q := ⟨x 0, x 1, eq_ix2 x⟩
  have hq : q.val < 256 := q.isLt
  rw [chunk_apply]
  unfold wblk
  have e1 : (Rect.unit (s := S512x512) ![0, 32 * c] S512x32.size inb1).idx (ix2 r ⟨q.val / 8, by omega⟩)
      = ix2 (((Rect.unit (s := S512x4096) ![0, 256 * c] S512x256.size inb8).emb (ix2 r q)) 0) ⟨(((Rect.unit (s := S512x4096) ![0, 256 * c] S512x256.size inb8).emb (ix2 r q)) 1).val / 8, by
          have h : (((Rect.unit (s := S512x4096) ![0, 256 * c] S512x256.size inb8).emb (ix2 r q)) 1).val < 4096 := (((Rect.unit (s := S512x4096) ![0, 256 * c] S512x256.size inb8).emb (ix2 r q)) 1).isLt
          omega⟩ := by
    funext a
    match a with
    | ⟨0, _⟩ => exact Fin.ext (by show 0 + 1 * r.val = 0 + 1 * r.val; rfl)
    | ⟨1, _⟩ => exact Fin.ext (by show 32 * c + 1 * (q.val / 8) = (256 * c + 1 * q.val) / 8; omega)
  have e2 : (Rect.unit (s := S512x32) ![0, 2 * c] S512x2.size inb2).idx (ix2 r ⟨q.val / 128, by omega⟩)
      = ix2 (((Rect.unit (s := S512x4096) ![0, 256 * c] S512x256.size inb8).emb (ix2 r q)) 0) ⟨(((Rect.unit (s := S512x4096) ![0, 256 * c] S512x256.size inb8).emb (ix2 r q)) 1).val / 128, by
          have h : (((Rect.unit (s := S512x4096) ![0, 256 * c] S512x256.size inb8).emb (ix2 r q)) 1).val < 4096 := (((Rect.unit (s := S512x4096) ![0, 256 * c] S512x256.size inb8).emb (ix2 r q)) 1).isLt
          omega⟩ := by
    funext a
    match a with
    | ⟨0, _⟩ => exact Fin.ext (by show 0 + 1 * r.val = 0 + 1 * r.val; rfl)
    | ⟨1, _⟩ => exact Fin.ext (by show 2 * c + 1 * (q.val / 128) = (256 * c + 1 * q.val) / 128; omega)
  have e3 : q.val % 8 = (((Rect.unit (s := S512x4096) ![0, 256 * c] S512x256.size inb8).emb (ix2 r q)) 1).val % 8 := by
    show q.val % 8 = (256 * c + 1 * q.val) % 8; omega
  show x2 ((Rect.unit (s := S512x32) ![0, 2 * c] S512x2.size inb2).idx (ix2 r ⟨q.val / 128, _⟩))
      * FloatOps.sitofp (F := Ideal) .f32 (Cert.Dequant.field (x1 ((Rect.unit (s := S512x512) ![0, 32 * c] S512x32.size inb1).idx (ix2 r ⟨q.val / 8, _⟩))) (q.val % 8))
      + x3 ((Rect.unit (s := S512x32) ![0, 2 * c] S512x2.size inb2).idx (ix2 r ⟨q.val / 128, _⟩)) = _
  rw [e1, e2, e3]
  rfl

/-! ## What each case leaves -/

/-- The refill stores sixteen pieces into the kept buffer, piece `n` over columns `256 n … 256 n + 255`; each is the
    chunk function of words `32 n …`, scales and shifts `2 n, 2 n + 1` of the point's blocks, hence the block of the
    dequantized weights its rectangle names. -/
theorem pieces_ok (c : Dev nD) (i : grid0.Coords) (arg2 : Memref sig .tc .vmem S512x4096 .bf16) (harg2 : arg2.IsWhole) (arg3 : Memref sig .tc .vmem S512x512 .i32) (harg3 : arg3.IsWhole) (arg4 : Memref sig .tc .vmem S512x32 .f32) (harg4 : arg4.IsWhole) (arg5 : Memref sig .tc .vmem S512x32 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x4096 .bf16) (harg8 : arg8.IsWhole) (hc0 : cond0_0 i)
    (x0 : Vec Ideal S512x4096 .bf16) (x1 : Vec Ideal S512x512 .i32) (x2 x3 : Vec Ideal S512x32 .f32) (x4 : Vec Ideal S1x512 .f32) :
    ∀ p ∈ (kernelRun0_A (F := Ideal) c i arg2 harg2 arg3 harg3 arg4 harg4 arg5 harg5 arg6 harg6 arg7 harg7 arg8 harg8 hc0 x0 x1 x2 x3 x4).2.1, ∀ x : p.1.shape.Idx, p.2 x = wblk x1 x2 x3 (p.1.emb x) := by
  unfold kernelRun0_A
  dsimp only
  sl_unfold_words
  intro p hp
  simp only [List.mem_cons, List.mem_nil_iff, or_false] at hp
  rcases hp with rfl | rfl | rfl | rfl | rfl | rfl | rfl | rfl | rfl | rfl | rfl | rfl | rfl | rfl | rfl | rfl
  all_goals (dsimp only; simp only [pay_c1, pay_c2, pay_c3, pay_c4, pay_c5, pay_c6, pay_c7, pay_c8, pay_c9, pay_c10, pay_c11, pay_c12, pay_c13, pay_c14, pay_c15, View.readAt_eq_ld, harg3.read_unread, harg4.read_unread, harg5.read_unread])
  · intro x; exact chunk_ld x1 x2 x3 15 _ _ _ rfl rfl rfl _ _ _ x
  · intro x; exact chunk_ld x1 x2 x3 14 _ _ _ rfl rfl rfl _ _ _ x
  · intro x; exact chunk_ld x1 x2 x3 13 _ _ _ rfl rfl rfl _ _ _ x
  · intro x; exact chunk_ld x1 x2 x3 12 _ _ _ rfl rfl rfl _ _ _ x
  · intro x; exact chunk_ld x1 x2 x3 11 _ _ _ rfl rfl rfl _ _ _ x
  · intro x; exact chunk_ld x1 x2 x3 10 _ _ _ rfl rfl rfl _ _ _ x
  · intro x; exact chunk_ld x1 x2 x3 9 _ _ _ rfl rfl rfl _ _ _ x
  · intro x; exact chunk_ld x1 x2 x3 8 _ _ _ rfl rfl rfl _ _ _ x
  · intro x; exact chunk_ld x1 x2 x3 7 _ _ _ rfl rfl rfl _ _ _ x
  · intro x; exact chunk_ld x1 x2 x3 6 _ _ _ rfl rfl rfl _ _ _ x
  · intro x; exact chunk_ld x1 x2 x3 5 _ _ _ rfl rfl rfl _ _ _ x
  · intro x; exact chunk_ld x1 x2 x3 4 _ _ _ rfl rfl rfl _ _ _ x
  · intro x; exact chunk_ld x1 x2 x3 3 _ _ _ rfl rfl rfl _ _ _ x
  · intro x; exact chunk_ld x1 x2 x3 2 _ _ _ rfl rfl rfl _ _ _ x
  · intro x; exact chunk_ld x1 x2 x3 1 _ _ _ rfl rfl rfl _ _ _ x
  · intro x; exact chunk_ld x1 x2 x3 0 _ _ _ rfl rfl rfl _ _ _ x

/-- The sixteen pieces tile the kept buffer, so after the refill it holds the dequantized weights of the point's blocks. -/
theorem scratch_canon (c : Dev nD) (i : grid0.Coords) (arg2 : Memref sig .tc .vmem S512x4096 .bf16) (harg2 : arg2.IsWhole) (arg3 : Memref sig .tc .vmem S512x512 .i32) (harg3 : arg3.IsWhole) (arg4 : Memref sig .tc .vmem S512x32 .f32) (harg4 : arg4.IsWhole) (arg5 : Memref sig .tc .vmem S512x32 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x4096 .bf16) (harg8 : arg8.IsWhole) (hc0 : cond0_0 i)
    (x0 : Vec Ideal S512x4096 .bf16) (x1 : Vec Ideal S512x512 .i32) (x2 x3 : Vec Ideal S512x32 .f32) (x4 : Vec Ideal S1x512 .f32) :
    View.canon (kernelRun0_A (F := Ideal) c i arg2 harg2 arg3 harg3 arg4 harg4 arg5 harg5 arg6 harg6 arg7 harg7 arg8 harg8 hc0 x0 x1 x2 x3 x4).2.1 = wblk x1 x2 x3 :=
  funext fun y => View.canon_apply_of_pieces (wblk x1 x2 x3) _ (pieces_ok c i arg2 harg2 arg3 harg3 arg4 harg4 arg5 harg5 arg6 harg6 arg7 harg7 arg8 harg8 hc0 x0 x1 x2 x3 x4) y
    (scover0_A_0 c i arg2 harg2 arg3 harg3 arg4 harg4 arg5 harg5 arg6 harg6 arg7 harg7 arg8 harg8 hc0 x0 x1 x2 x3 x4 y)

/-- At a refill point the kept buffer ends at the dequantized weights of the point's blocks. -/
theorem sout_A (c : Dev nD) (i : grid0.Coords) (arg2 : Memref sig .tc .vmem S512x4096 .bf16) (harg2 : arg2.IsWhole) (arg3 : Memref sig .tc .vmem S512x512 .i32) (harg3 : arg3.IsWhole) (arg4 : Memref sig .tc .vmem S512x32 .f32) (harg4 : arg4.IsWhole) (arg5 : Memref sig .tc .vmem S512x32 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x4096 .bf16) (harg8 : arg8.IsWhole) (hc0 : cond0_0 i)
    (x0 : Vec Ideal S512x4096 .bf16) (x1 : Vec Ideal S512x512 .i32) (x2 x3 : Vec Ideal S512x32 .f32) (x4 : Vec Ideal S1x512 .f32) :
    sout0_A_0 (F := Ideal) c i arg2 harg2 arg3 harg3 arg4 harg4 arg5 harg5 arg6 harg6 arg7 harg7 arg8 harg8 hc0 x0 x1 x2 x3 x4 = wblk x1 x2 x3 := by
  unfold sout0_A_0
  rw [View.read_writes_eq_canon _ _ _ (scover0_A_0 c i arg2 harg2 arg3 harg3 arg4 harg4 arg5 harg5 arg6 harg6 arg7 harg7 arg8 harg8 hc0 x0 x1 x2 x3 x4)]
  exact scratch_canon c i arg2 harg2 arg3 harg3 arg4 harg4 arg5 harg5 arg6 harg6 arg7 harg7 arg8 harg8 hc0 x0 x1 x2 x3 x4

/-- At a refill point the output buffer ends at the point's product: the activations' block against the kept buffer
    read back whole after the sixteen stores, which is the dequantized weights of the point's blocks, plus the bias row. -/
theorem out_A (c : Dev nD) (i : grid0.Coords) (arg2 : Memref sig .tc .vmem S512x4096 .bf16) (harg2 : arg2.IsWhole) (arg3 : Memref sig .tc .vmem S512x512 .i32) (harg3 : arg3.IsWhole) (arg4 : Memref sig .tc .vmem S512x32 .f32) (harg4 : arg4.IsWhole) (arg5 : Memref sig .tc .vmem S512x32 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x4096 .bf16) (harg8 : arg8.IsWhole) (hc0 : cond0_0 i)
    (x0 : Vec Ideal S512x4096 .bf16) (x1 : Vec Ideal S512x512 .i32) (x2 x3 : Vec Ideal S512x32 .f32) (x4 : Vec Ideal S1x512 .f32) :
    out0_A_5 (F := Ideal) c i arg2 harg2 arg3 harg3 arg4 harg4 arg5 harg5 arg6 harg6 arg7 harg7 arg8 harg8 hc0 x0 x1 x2 x3 x4 = k0_pay2 (F := Ideal) x0 (wblk x1 x2 x3) x4 := by
  unfold out0_A_5
  rw [View.read_writes_eq_canon _ _ _ (cover0_A_5 c i arg2 harg2 arg3 harg3 arg4 harg4 arg5 harg5 arg6 harg6 arg7 harg7 arg8 harg8 hc0 x0 x1 x2 x3 x4)]
  unfold kernelRun0_A
  dsimp only
  sl_unfold_words
  rw [View.canon_unit_zero hz]
  simp only [View.readAt_eq_ld, harg2.read_unread, harg6.read_unread,
    View.ld_unit_zero (S := S512x4096) hz, View.ld_unit_zero (S := S1x512) hz]
  refine congrArg (fun w => k0_pay2 (F := Ideal) x0 w x4) ?_
  refine (View.readCov_eq_canon_ld _ _ _ (scover0_A_0 c i arg2 harg2 arg3 harg3 arg4 harg4 arg5 harg5 arg6 harg6 arg7 harg7 arg8 harg8 hc0 x0 x1 x2 x3 x4)).trans ?_
  rw [View.ld_unit_zero (S := S512x4096) hz]
  exact scratch_canon c i arg2 harg2 arg3 harg3 arg4 harg4 arg5 harg5 arg6 harg6 arg7 harg7 arg8 harg8 hc0 x0 x1 x2 x3 x4

theorem out_B (c : Dev nD) (i : grid0.Coords) (arg2 : Memref sig .tc .vmem S512x4096 .bf16) (harg2 : arg2.IsWhole) (arg3 : Memref sig .tc .vmem S512x512 .i32) (harg3 : arg3.IsWhole) (arg4 : Memref sig .tc .vmem S512x32 .f32) (harg4 : arg4.IsWhole) (arg5 : Memref sig .tc .vmem S512x32 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x4096 .bf16) (harg8 : arg8.IsWhole) (hc0 : ¬cond0_0 i)
    (x0 : Vec Ideal S512x4096 .bf16) (x1 : Vec Ideal S512x512 .i32) (x2 x3 : Vec Ideal S512x32 .f32) (x4 : Vec Ideal S1x512 .f32)
    (xs0 : Vec Ideal S512x4096 .bf16) :
    out0_B_5 (F := Ideal) c i arg2 harg2 arg3 harg3 arg4 harg4 arg5 harg5 arg6 harg6 arg7 harg7 arg8 harg8 hc0 x0 x1 x2 x3 x4 xs0 = k0_pay2 (F := Ideal) x0 xs0 x4 := by
  unfold out0_B_5
  rw [View.read_writes_eq_canon _ _ _ (cover0_B_5 c i arg2 harg2 arg3 harg3 arg4 harg4 arg5 harg5 arg6 harg6 arg7 harg7 arg8 harg8 hc0 x0 x1 x2 x3 x4 xs0)]
  unfold kernelRun0_B
  dsimp only
  sl_unfold_words
  rw [View.canon_unit_zero hz]
  simp only [View.readAt_eq_ld, harg2.read_unread, harg6.read_unread, harg8.read_unread,
    View.ld_unit_zero (S := S512x4096) hz, View.ld_unit_zero (S := S1x512) hz]

end Cert.KernelIdeal.Cases

end
-- ==== Proof.Names.lean ====
/-
  Names, of literal types, for what the one pipeline stages and reads at the ideal values.

  The grid has 8 x 16 points, the column tile the slow axis: point `t` works on row tile `t % 16` (512 of the 8192
  rows of the flattened activations) and column tile `t / 16` (512 of the 4096 output features). So local row `p`
  of the point is global row `512 (t % 16) + p`, and local output feature `q` is global feature `512 (t / 16) + q`.
-/
import proofs.«425439_j44959717655209_3_alg».proof.Proof.Gen.KernelIdeal.Frame
import Idealize.ShloMosaic.Lib.ValueIdx

set_option maxRecDepth 16384

noncomputable section

namespace Cert.KernelIdeal.Names

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The grid has 128 points. -/
theorem N128 : cfg0.N = 128 := N_0

/-- The global row of local row `p` at point `t`. -/
def grow (t : Fin cfg0.N) (p : Fin 512) : Fin 8192 := ⟨512 * (t.val % 16) + p.val, by have := p.isLt; omega⟩

/-- The global output feature of local feature `q` at point `t`. -/
def gcol (t : Fin cfg0.N) (q : Fin 512) : Fin 4096 :=
  ⟨512 * (t.val / 16) + q.val, by have := q.isLt; have : t.val < 128 := lt_of_lt_of_eq t.isLt N_0; omega⟩

/-- The point's block of activations (512 rows, all 4096 input features). -/
abbrev xblk (c : Dev nD) (t : Fin cfg0.N) : Vec Ideal S512x4096 .bf16 := iblk m c 0 t
/-- The point's block of packed words (512 output features, 512 words each). -/
abbrev wqblk (c : Dev nD) (t : Fin cfg0.N) : Vec Ideal S512x512 .i32 := iblk m c 1 t
/-- The point's block of scales (512 output features, 32 groups each). -/
abbrev scblk (c : Dev nD) (t : Fin cfg0.N) : Vec Ideal S512x32 .f32 := iblk m c 2 t
/-- The point's block of shifts. -/
abbrev shblk (c : Dev nD) (t : Fin cfg0.N) : Vec Ideal S512x32 .f32 := iblk m c 3 t
/-- The point's row of output biases (512 output features). -/
abbrev brow (c : Dev nD) (t : Fin cfg0.N) : Vec Ideal S1x512 .f32 := iblk m c 4 t

/-- The flattened activations as the region finds them. -/
abbrev xarr (c : Dev nD) : Vec Ideal S8192x4096 .bf16 := V m c main_v1
/-- The packed words as the region finds them. -/
abbrev wqarr (c : Dev nD) : Vec Ideal S4096x512 .i32 := V m c main_arg1
/-- The scales as the region finds them. -/
abbrev scarr (c : Dev nD) : Vec Ideal S4096x32 .f32 := V m c main_arg2
/-- The shifts as the region finds them. -/
abbrev sharr (c : Dev nD) : Vec Ideal S4096x32 .f32 := V m c main_arg3
/-- The output biases, as a 1 x 4096 row, as the region finds them. -/
abbrev barr (c : Dev nD) : Vec Ideal S1x4096 .f32 := V m c main_v2

end Cert.KernelIdeal.Names

end
-- ==== Proof.Blocks.lean ====
/-
  Where each window's block sits in its array.
-/
import proofs.«425439_j44959717655209_3_alg».proof.Proof.Names
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.SL.Sem Idealize.ShloMosaic.ValueIdx
open Cert.KernelIdeal Cert.KernelIdeal.Gen
open Cert.KernelIdeal.Names

variable (m : (ℓ : Loc nD τ sig) → Buf (Elt Ideal) ℓ)

/-- The printed index maps at each of the 128 grid points: the activations' block index is (t % 16, 0);
    the packed words', scales' and shifts' (t / 16, 0); the bias row's (0, t / 16); the output's (t % 16, t / 16). -/
private theorem idx_facts : ∀ t : Fin cfg0.N,
    win0_0.index t (0 : Fin 2) = t.val % 16 ∧ win0_0.index t (1 : Fin 2) = 0
    ∧ win0_1.index t (0 : Fin 2) = t.val / 16 ∧ win0_1.index t (1 : Fin 2) = 0
    ∧ win0_2.index t (0 : Fin 2) = t.val / 16 ∧ win0_2.index t (1 : Fin 2) = 0
    ∧ win0_3.index t (0 : Fin 2) = t.val / 16 ∧ win0_3.index t (1 : Fin 2) = 0
    ∧ win0_4.index t (0 : Fin 2) = 0 ∧ win0_4.index t (1 : Fin 2) = t.val / 16
    ∧ win0_5.index t (0 : Fin 2) = t.val % 16 ∧ win0_5.index t (1 : Fin 2) = t.val / 16 :=
  (by decide +kernel : ∀ t : Fin grid0.N, _)

/-- Stepping back one point inside a column tile (t % 16 ≠ 0) keeps t / 16, hence the global output feature. -/
private theorem gcol_prev (t : Fin cfg0.N) (h : ¬t.val % 16 = 0) (r : Fin 512) :
    gcol ⟨t.val - 1, Nat.lt_of_le_of_lt (Nat.sub_le _ _) t.isLt⟩ r = gcol t r := by
  apply Fin.ext
  show 512 * ((t.val - 1) / 16) + r.val = 512 * (t.val / 16) + r.val
  omega

/-- Local (p, k) of the activations' block is global (512 (t % 16) + p, k): block index (t % 16, 0), block 512 x 4096. -/
theorem xblk_apply (c : Dev nD) (t : Fin cfg0.N) (p : Fin 512) (k : Fin 4096) :
    xblk m c t (ix2 p k) = xarr m c (ix2 (grow t p) k) := by
  obtain ⟨e0, e1, -⟩ := idx_facts t
  show ((cfg0.win 0).blk t).view.read (Elt Ideal) (V m c (Pipeline.arrRef spec0 0)) (ix2 p k) = V m c main_v1 (ix2 (grow t p) k)
  rw [View.read_apply]
  show V m c main_v1 (((cfg0.win 0).blk t).view.emb (ix2 p k)) = _
  refine congrArg (V m c main_v1) ?_
  funext a; apply Fin.ext
  match a with
  | ⟨0, _⟩ => show win0_0.index t (0 : Fin 2) * 512 + 1 * p.val = 512 * (t.val % 16) + p.val; omega
  | ⟨1, _⟩ => show win0_0.index t (1 : Fin 2) * 4096 + 1 * k.val = k.val; omega

/-- Local (r, g) of the packed words' block is global (512 (t / 16) + r, g): block index (t / 16, 0), block 512 x 512. -/
theorem wqblk_apply (c : Dev nD) (t : Fin cfg0.N) (r : Fin 512) (g : Fin 512) :
    wqblk m c t (ix2 r g) = wqarr m c (ix2 (gcol t r) g) := by
  obtain ⟨-, -, e0, e1, -⟩ := idx_facts t
  show ((cfg0.win 1).blk t).view.read (Elt Ideal) (V m c (Pipeline.arrRef spec0 1)) (ix2 r g) = V m c main_arg1 (ix2 (gcol t r) g)
  rw [View.read_apply]
  show V m c main_arg1 (((cfg0.win 1).blk t).view.emb (ix2 r g)) = _
  refine congrArg (V m c main_arg1) ?_
  funext a; apply Fin.ext
  match a with
  | ⟨0, _⟩ => show win0_1.index t (0 : Fin 2) * 512 + 1 * r.val = 512 * (t.val / 16) + r.val; omega
  | ⟨1, _⟩ => show win0_1.index t (1 : Fin 2) * 512 + 1 * g.val = g.val; omega

/-- Local (r, g) of the scales' block is global (512 (t / 16) + r, g): block index (t / 16, 0), block 512 x 32. -/
theorem scblk_apply (c : Dev nD) (t : Fin cfg0.N) (r : Fin 512) (g : Fin 32) :
    scblk m c t (ix2 r g) = scarr m c (ix2 (gcol t r) g) := by
  obtain ⟨-, -, -, -, e0, e1, -⟩ := idx_facts t
  show ((cfg0.win 2).blk t).view.read (Elt Ideal) (V m c (Pipeline.arrRef spec0 2)) (ix2 r g) = V m c main_arg2 (ix2 (gcol t r) g)
  rw [View.read_apply]
  show V m c main_arg2 (((cfg0.win 2).blk t).view.emb (ix2 r g)) = _
  refine congrArg (V m c main_arg2) ?_
  funext a; apply Fin.ext
  match a with
  | ⟨0, _⟩ => show win0_2.index t (0 : Fin 2) * 512 + 1 * r.val = 512 * (t.val / 16) + r.val; omega
  | ⟨1, _⟩ => show win0_2.index t (1 : Fin 2) * 32 + 1 * g.val = g.val; omega

/-- Local (r, g) of the shifts' block is global (512 (t / 16) + r, g): block index (t / 16, 0), block 512 x 32. -/
theorem shblk_apply (c : Dev nD) (t : Fin cfg0.N) (r : Fin 512) (g : Fin 32) :
    shblk m c t (ix2 r g) = sharr m c (ix2 (gcol t r) g) := by
  obtain ⟨-, -, -, -, -, -, e0, e1, -⟩ := idx_facts t
  show ((cfg0.win 3).blk t).view.read (Elt Ideal) (V m c (Pipeline.arrRef spec0 3)) (ix2 r g) = V m c main_arg3 (ix2 (gcol t r) g)
  rw [View.read_apply]
  show V m c main_arg3 (((cfg0.win 3).blk t).view.emb (ix2 r g)) = _
  refine congrArg (V m c main_arg3) ?_
  funext a; apply Fin.ext
  match a with
  | ⟨0, _⟩ => show win0_3.index t (0 : Fin 2) * 512 + 1 * r.val = 512 * (t.val / 16) + r.val; omega
  | ⟨1, _⟩ => show win0_3.index t (1 : Fin 2) * 32 + 1 * g.val = g.val; omega

/-- Local (0, q) of the bias row's block is global (0, 512 (t / 16) + q): block index (0, t / 16), block 1 x 512. -/
theorem brow_apply (c : Dev nD) (t : Fin cfg0.N) (q : Fin 512) :
    brow m c t (ix2 (0 : Fin 1) q) = barr m c (ix2 (0 : Fin 1) (gcol t q)) := by
  obtain ⟨-, -, -, -, -, -, -, -, e0, e1, -⟩ := idx_facts t
  show ((cfg0.win 4).blk t).view.read (Elt Ideal) (V m c (Pipeline.arrRef spec0 4)) (ix2 (0 : Fin 1) q) = V m c main_v2 (ix2 (0 : Fin 1) (gcol t q))
  rw [View.read_apply]
  show V m c main_v2 (((cfg0.win 4).blk t).view.emb (ix2 (0 : Fin 1) q)) = _
  refine congrArg (V m c main_v2) ?_
  funext a; apply Fin.ext
  match a with
  | ⟨0, _⟩ => show win0_4.index t (0 : Fin 2) * 1 + 1 * 0 = 0; omega
  | ⟨1, _⟩ => show win0_4.index t (1 : Fin 2) * 512 + 1 * q.val = 512 * (t.val / 16) + q.val; omega

/-- Inside a column tile the packed words' block does not move: both points read rows 512 (t / 16) + r. -/
theorem wqblk_prev (c : Dev nD) (t : Fin cfg0.N) (h : ¬t.val % 16 = 0) :
    wqblk m c t = wqblk m c ⟨t.val - 1, Nat.lt_of_le_of_lt (Nat.sub_le _ _) t.isLt⟩ := by
  funext y
  obtain ⟨r, g, rfl⟩ : ∃ (r : Fin 512) (g : Fin 512), y = ix2 r g := ⟨y 0, y 1, eq_ix2 y⟩
  rw [wqblk_apply, wqblk_apply, gcol_prev t h r]

/-- Inside a column tile the scales' block does not move. -/
theorem scblk_prev (c : Dev nD) (t : Fin cfg0.N) (h : ¬t.val % 16 = 0) :
    scblk m c t = scblk m c ⟨t.val - 1, Nat.lt_of_le_of_lt (Nat.sub_le _ _) t.isLt⟩ := by
  funext y
  obtain ⟨r, g, rfl⟩ : ∃ (r : Fin 512) (g : Fin 32), y = ix2 r g := ⟨y 0, y 1, eq_ix2 y⟩
  rw [scblk_apply, scblk_apply, gcol_prev t h r]

/-- Inside a column tile the shifts' block does not move. -/
theorem shblk_prev (c : Dev nD) (t : Fin cfg0.N) (h : ¬t.val % 16 = 0) :
    shblk m c t = shblk m c ⟨t.val - 1, Nat.lt_of_le_of_lt (Nat.sub_le _ _) t.isLt⟩ := by
  funext y
  obtain ⟨r, g, rfl⟩ : ∃ (r : Fin 512) (g : Fin 32), y = ix2 r g := ⟨y 0, y 1, eq_ix2 y⟩
  rw [shblk_apply, shblk_apply, gcol_prev t h r]

/-- Local (p, q) of the output's block is global (512 (t % 16) + p, 512 (t / 16) + q): block index (t % 16, t / 16),
    block 512 x 512. -/
theorem blk5_read (G : Vec Ideal S8192x4096 .f32) (t : Fin cfg0.N) (p q : Fin 512) :
    ((cfg0.win 5).blk t).view.read (Elt Ideal) G (ix2 p q) = G (ix2 (grow t p) (gcol t q)) := by
  obtain ⟨-, -, -, -, -, -, -, -, -, -, e0, e1⟩ := idx_facts t
  rw [View.read_apply]
  show G (((cfg0.win 5).blk t).view.emb (ix2 p q)) = _
  refine congrArg G ?_
  funext a; apply Fin.ext
  match a with
  | ⟨0, _⟩ => show win0_5.index t (0 : Fin 2) * 512 + 1 * p.val = 512 * (t.val % 16) + p.val; omega
  | ⟨1, _⟩ => show win0_5.index t (1 : Fin 2) * 512 + 1 * q.val = 512 * (t.val / 16) + q.val; omega

/-- An index of the output array is in point t's block iff each coordinate lies in the block's range on its axis. -/
private theorem mem_blk5 (t : Fin cfg0.N) (i : S8192x4096.Idx) :
    i ∈ ((cfg0.win 5).blk t).view.set ↔ ∀ a : Fin 2, win0_5.index t a * S512x512.size a ≤ (i a).val ∧ (i a).val < win0_5.index t a * S512x512.size a + S512x512.size a := by
  show i ∈ ((View.whole main_v3).slice (win0_5.rect t)).set ↔ _
  rw [View.set_slice_whole, Rect.mem_set_unit]
  exact Iff.rfl

/-- Every index (r, o) of the output array is in the block of the point t = 16 (o / 512) + r / 512, for which
    t % 16 = r / 512 and t / 16 = o / 512; and every point writes its block back. -/
theorem cover5 (i : S8192x4096.Idx) :
    ∃ t : Fin cfg0.N, (cfg0.win 5).flush t = true ∧ i ∈ ((cfg0.win 5).blk t).view.set := by
  have hi0 : (i 0).val < 8192 := (i 0).isLt
  have hi1 : (i 1).val < 4096 := (i 1).isLt
  obtain ⟨t, ht⟩ : ∃ t : Fin cfg0.N, t.val = 16 * ((i 1).val / 512) + (i 0).val / 512 :=
    ⟨⟨16 * ((i 1).val / 512) + (i 0).val / 512, lt_of_lt_of_eq (by omega) N128.symm⟩, rfl⟩
  obtain ⟨-, -, -, -, -, -, -, -, -, -, e0, e1⟩ := idx_facts t
  refine ⟨t, flush0_5 t, ?_⟩
  rw [mem_blk5]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 512 ≤ (i 1).val ∧ (i 1).val < win0_5.index t (1 : Fin 2) * 512 + 512; omega

end Cert.KernelIdeal.Blocks

end
-- ==== Proof.Invariant.lean ====
/-
  What the staging buffers hold after every point.

  The scratch is refilled at the first point of each run of 16 (the points with `t % 16 = 0`) with the dequantized
  weights of the point's blocks, and left alone at the other 15; and the blocks of packed words, scales and shifts
  do not move inside such a run. So after EVERY point the scratch holds the dequantized weights of that point's own
  blocks, and the output buffer the point's product with them.
-/
import proofs.«425439_j44959717655209_3_alg».proof.Proof.Cases
import proofs.«425439_j44959717655209_3_alg».proof.Proof.Blocks

set_option maxRecDepth 16384

noncomputable section

namespace Cert.KernelIdeal.Invariant

open Idealize.ShloMosaic Idealize.ShloMosaic.TcCoe Idealize.SL.Sem Idealize.ShloMosaic.ValueIdx
open Cert.KernelIdeal Cert.KernelIdeal.Gen
open Cert.KernelIdeal.Names Cert.KernelIdeal.Cases Cert.KernelIdeal.Blocks

variable (m : (ℓ : Loc nD τ sig) → Buf (Elt Ideal) ℓ)

/-- At a point that refills the scratch (`t % 16 = 0`) it holds the dequantized weights of the point's blocks. -/
private theorem scratch_refill (c : Dev nD) (t : Fin cfg0.N) (h0 : t.val % 16 = 0) :
    (outsAt0 m c t.val t.isLt).2 = wblk (wqblk m c t) (scblk m c t) (shblk m c t) := by
  rw [outsAt0_A m c t h0]
  dsimp only
  exact sout_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (xblk m c t) (wqblk m c t) (scblk m c t) (shblk m c t) (brow m c t)

/-- At any other point the scratch is what the point before left. -/
private theorem scratch_keep (c : Dev nD) (t : Fin cfg0.N) (h0 : ¬t.val % 16 = 0) :
    (outsAt0 m c t.val t.isLt).2 = (outsAt0 m c (t.val - 1) (Nat.lt_of_le_of_lt (Nat.sub_le _ _) t.isLt)).2 := by
  rw [outsAt0_B m c t h0]
  dsimp only
  unfold sout0_B_0
  rfl

/-- After every point the kept buffer holds the dequantized weights of that point's own blocks: by induction on the
    point, a refill point by its stores, any other by the point before and the blocks not having moved. -/
theorem scratch_at (c : Dev nD) : ∀ (n : ℕ) (h : n < cfg0.N),
    (outsAt0 m c n h).2 = wblk (wqblk m c ⟨n, h⟩) (scblk m c ⟨n, h⟩) (shblk m c ⟨n, h⟩)
  | 0, h => scratch_refill m c ⟨0, h⟩ rfl
  | n + 1, h => by
    by_cases h0 : (n + 1) % 16 = 0
    · exact scratch_refill m c ⟨n + 1, h⟩ h0
    · -- inside a run of 16 the blocks of words, scales and shifts are those of the point before
      refine (scratch_keep m c ⟨n + 1, h⟩ h0).trans ?_
      rw [wqblk_prev m c ⟨n + 1, h⟩ h0, scblk_prev m c ⟨n + 1, h⟩ h0, shblk_prev m c ⟨n + 1, h⟩ h0]
      exact scratch_at c n (Nat.lt_of_succ_lt h)

/-- After every point the output's buffer holds the point's product: its activations against the dequantized weights of
    its blocks, plus its bias row. -/
theorem out_at (c : Dev nD) (t : Fin cfg0.N) :
    (outsAt0 m c t.val t.isLt).1
      = k0_pay2 (F := Ideal) (xblk m c t) (wblk (wqblk m c t) (scblk m c t) (shblk m c t)) (brow m c t) := by
  by_cases h0 : t.val % 16 = 0
  · rw [outsAt0_A m c t h0]
    dsimp only
    exact out_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (xblk m c t) (wqblk m c t) (scblk m c t) (shblk m c t) (brow m c t)
  · rw [outsAt0_B m c t h0]
    dsimp only
    refine (out_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (xblk m c t) (wqblk m c t) (scblk m c t) (shblk m c t) (brow m c t)
      (outsAt0 m c (t.val - 1) (Nat.lt_of_le_of_lt (Nat.sub_le _ _) t.isLt)).2).trans ?_
    -- the scratch the point reads is the dequantized weights of the point before, whose blocks are this point's
    rw [scratch_at m c (t.val - 1) (Nat.lt_of_le_of_lt (Nat.sub_le _ _) t.isLt),
      ← wqblk_prev m c t h0, ← scblk_prev m c t h0, ← shblk_prev m c t h0]

end Cert.KernelIdeal.Invariant

end
-- ==== Proof.HostOps.lean ====
/-
  The host operations around the region, read at an index.
-/
import proofs.«425439_j44959717655209_3_alg».proof.Proof.Names
import Idealize.ShloMosaic.Lib.Pipeline.Value
import Idealize.ShloMosaic.Lib.ValueIdx
import Idealize.ShloMosaic.Lib.StableHlo.Run

set_option maxRecDepth 16384

noncomputable section

namespace Cert.KernelIdeal.HostOps

open Idealize.ShloMosaic Idealize.ShloMosaic.TcCoe Idealize.SL.Sem Idealize.ShloMosaic.ValueIdx
open Cert.KernelIdeal Cert.KernelIdeal.Gen
open Cert.KernelIdeal.Names

variable (m : (ℓ : Loc nD τ sig) → Buf (Elt Ideal) ℓ)

/-- The flattened activations as the region finds them: the launched 4 x 2048 x 4096 array laid out as 8192 x 4096 and
    narrowed to bf16. -/
theorem xarr_eq (c : Dev nD) :
    (V m c main_v1 : Vec Ideal S8192x4096 .bf16)
      = truncf (F := Ideal) .bf16
          (shapeCast S8192x4096 (m ((c : Thread nD τ).loc main_arg0) : Vec Ideal S4x2048x4096 .f32)
            shapeCasts_S4x2048x4096_S8192x4096) bitsLt_bf16_f32 := by
  show StableHlo.after hostOps0 (fun b => m (c, b)) (Proc.devRef .tc main_v1) = _
  after_results
  rfl

/-- The output biases as the region finds them: the launched 4096 entries laid out as one row. -/
theorem barr_eq (c : Dev nD) :
    (V m c main_v2 : Vec Ideal S1x4096 .f32)
      = shapeCast S1x4096 (m ((c : Thread nD τ).loc main_arg4) : Vec Ideal S4096 .f32) shapeCasts_S4096_S1x4096 := by
  show StableHlo.after hostOps0 (fun b => m (c, b)) (Proc.devRef .tc main_v2) = _
  after_results
  rfl

/-- Row `r` of the 8192 flattened rows is row `r % 2048` of slab `r / 2048`: both sit at row-major position
    `r * 4096 + k`, since `(r / 2048) * 2048 + r % 2048 = r`. Narrowing to bf16 changes nothing at the ideal values. -/
theorem xarr_apply (c : Dev nD) (r : Fin 8192) (k : Fin 4096) :
    xarr m c (ix2 r k)
      = (m ((c : Thread nD τ).loc main_arg0) : Vec Ideal S4x2048x4096 .f32)
          (ix3 (⟨r.val / 2048, by have := r.isLt; omega⟩ : Fin 4) (⟨r.val % 2048, Nat.mod_lt _ (by decide)⟩ : Fin 2048) k) := by
  refine (congrFun (xarr_eq m c) (ix2 r k)).trans ?_
  refine (truncf_apply _ bitsLt_bf16_f32 (ix2 r k)).trans ?_
  exact shapeCast_apply _ shapeCasts_S4x2048x4096_S8192x4096 (ix2 r k)
    (ix3 (⟨r.val / 2048, by have := r.isLt; omega⟩ : Fin 4) (⟨r.val % 2048, Nat.mod_lt _ (by decide)⟩ : Fin 2048) k)
    (by rw [Shape.rowMajor_val_two, Shape.rowMajor_val_three]
        show (r.val / 2048 * 2048 + r.val % 2048) * 4096 + k.val = r.val * 4096 + k.val
        omega)

/-- Entry `(0, o)` of the 1 x 4096 row is entry `o` of the 4096 biases: both sit at row-major position `o`. -/
theorem barr_apply (c : Dev nD) (o : Fin 4096) :
    barr m c (ix2 (0 : Fin 1) o) = (m ((c : Thread nD τ).loc main_arg4) : Vec Ideal S4096 .f32) (ix1 o) := by
  refine (congrFun (barr_eq m c) (ix2 (0 : Fin 1) o)).trans ?_
  exact shapeCast_apply _ shapeCasts_S4096_S1x4096 (ix2 (0 : Fin 1) o) (ix1 o)
    (by rw [Shape.rowMajor_val_one, Shape.rowMajor_val_two]
        show o.val = 0 * 4096 + o.val
        omega)

/-- The result array after the region's tail: the region's 8192 x 4096 output laid out as 4 x 2048 x 4096. -/
theorem tail_eq (c : Dev nD) :
    (Pipeline.afterTail₀ cfgs (dats m) 0 (V0 m) [hostOps1] c main_v4 : Vec Ideal S4x2048x4096 .f32)
      = shapeCast S4x2048x4096 ((dats m 0 c).arrAt 5 cfg0.N : Vec Ideal S8192x4096 .f32)
          shapeCasts_S8192x4096_S4x2048x4096 := by
  unfold Pipeline.afterTail₀
  show StableHlo.after hostOps1 _ (Proc.devRef .tc main_v4) = _
  after_results
  rw [Pipeline.withArrays_arr spec0 launch0.win.arr_inj c _ _ 5]
  generalize (dats m 0 c).arrAt 5 cfg0.N = A
  rfl

/-- Entry `(a, b, o)` of the result is entry `(a * 2048 + b, o)` of the region's output: both sit at row-major position
    `(a * 2048 + b) * 4096 + o`. -/
theorem tail_apply (c : Dev nD) (a : Fin 4) (b : Fin 2048) (o : Fin 4096) :
    (Pipeline.afterTail₀ cfgs (dats m) 0 (V0 m) [hostOps1] c main_v4 : Vec Ideal S4x2048x4096 .f32) (ix3 a b o)
      = ((dats m 0 c).arrAt 5 cfg0.N : Vec Ideal S8192x4096 .f32)
          (ix2 (⟨a.val * 2048 + b.val, by have := a.isLt; have := b.isLt; omega⟩ : Fin 8192) o) := by
  refine (congrFun (tail_eq m c) (ix3 a b o)).trans ?_
  exact shapeCast_apply _ shapeCasts_S8192x4096_S4x2048x4096 (ix3 a b o)
    (ix2 (⟨a.val * 2048 + b.val, by have := a.isLt; have := b.isLt; omega⟩ : Fin 8192) o)
    (by rw [Shape.rowMajor_val_two, Shape.rowMajor_val_three]
        show (a.val * 2048 + b.val) * 4096 + o.val = (a.val * 2048 + b.val) * 4096 + o.val
        rfl)

end Cert.KernelIdeal.HostOps

end
-- ==== Proof.Final.lean ====
/-
  The output array after the run, and the program's result.
-/
import proofs.«425439_j44959717655209_3_alg».proof.Proof.Invariant
import proofs.«425439_j44959717655209_3_alg».proof.Proof.HostOps
import proofs.«425439_j44959717655209_3_alg».proof.Proof.Payload
import proofs.«425439_j44959717655209_3_alg».proof.Proof.Spec
import Idealize.ShloMosaic.Lib.Pipeline.Value

set_option maxRecDepth 16384

noncomputable section

namespace Cert.KernelIdeal.Final

open Idealize.ShloMosaic Idealize.ShloMosaic.TcCoe Idealize.SL.Sem Idealize.ShloMosaic.ValueIdx
open Cert.KernelIdeal Cert.KernelIdeal.Gen
open Cert.KernelIdeal.Names Cert.KernelIdeal.Cases Cert.KernelIdeal.Blocks Cert.KernelIdeal.Invariant Cert.KernelIdeal.HostOps Cert.KernelIdeal.Payload

variable (m : (ℓ : Loc nD τ sig) → Buf (Elt Ideal) ℓ) (ρ : Dev nD → PrngReg)

/-- The 8192 x 4096 output as one function of the arrays the region finds: row `r` of the flattened activations
    against the dequantized weights of output feature `o`, plus that feature's bias. -/
def G (c : Dev nD) : Vec Ideal S8192x4096 .f32 := fun j =>
  (∑ k : Fin 4096, xarr m c (ix2 (j 0) k) * Cert.Dequant.weight (wqarr m c) (scarr m c) (sharr m c) (j 1) k)
    + barr m c (ix2 (0 : Fin 1) (j 1))

/-- The output function at row `r` and output feature `o`. -/
private theorem G_apply (c : Dev nD) (r : Fin 8192) (o : Fin 4096) :
    G m c (ix2 r o)
      = (∑ k : Fin 4096, xarr m c (ix2 r k) * Cert.Dequant.weight (wqarr m c) (scarr m c) (sharr m c) o k)
        + barr m c (ix2 (0 : Fin 1) o) := rfl

/-- The packed words, scales and shifts the region finds are the launched arguments 1, 2 and 3. -/
private theorem wqarr_eq (c : Dev nD) : wqarr m c = m ((c : Thread nD τ).loc main_arg1) := V_main_arg1 m c
private theorem scarr_eq (c : Dev nD) : scarr m c = m ((c : Thread nD τ).loc main_arg2) := V_main_arg2 m c
private theorem sharr_eq (c : Dev nD) : sharr m c = m ((c : Thread nD τ).loc main_arg3) := V_main_arg3 m c

/-- Entry `(q, k)` of a dequantized weight block: scale and shift of group `k / 128`, field `k % 8` of word `k / 8`,
    all of row `q`. -/
private theorem wblk_entry (x1 : Vec Ideal S512x512 .i32) (x2 x3 : Vec Ideal S512x32 .f32) (q : Fin 512) (k : Fin 4096) :
    wblk x1 x2 x3 (ix2 q k)
      = x2 (ix2 q (⟨k.val / 128, by have := k.isLt; omega⟩ : Fin 32))
          * FloatOps.sitofp (F := Ideal) .f32 (Cert.Dequant.field (x1 (ix2 q (⟨k.val / 8, by have := k.isLt; omega⟩ : Fin 512))) (k.val % 8))
        + x3 (ix2 q (⟨k.val / 128, by have := k.isLt; omega⟩ : Fin 32)) := rfl

/-- Local feature `q` of the point's weight block is global feature `512 (t / 16) + q`: the block's entry `(q, k)` is
    the dequantized weight of that feature and input feature `k`. -/
private theorem wblk_point (c : Dev nD) (t : Fin cfg0.N) (q : Fin 512) (k : Fin 4096) :
    wblk (wqblk m c t) (scblk m c t) (shblk m c t) (ix2 q k)
      = Cert.Dequant.weight (wqarr m c) (scarr m c) (sharr m c) (gcol t q) k := by
  refine (wblk_entry (wqblk m c t) (scblk m c t) (shblk m c t) q k).trans ?_
  rw [scblk_apply, wqblk_apply, shblk_apply]
  rfl

/-- The output window's blocks lie inside the array, so what a write-back takes from the staging buffer is all of it. -/
private theorem cut5_apply (t : Fin cfg0.N) (X : Vec Ideal S512x512 .f32) (p q : Fin 512) :
    (cfg0.win 5).cut (grid0.coords t) X (ix2 p q) = X (ix2 p q) := rfl

/-- What point `t` writes back is the output function on its block: entry `(p, q)` of the point's product is row
    `512 (t % 16) + p` of the activations against the dequantized weights of feature `512 (t / 16) + q`, plus that
    feature's bias. -/
theorem flushed_eq (c : Dev nD) (t : Fin cfg0.N) :
    (dats m 0 c).flushed 5 t = ((cfg0.win 5).blk t).view.read (Elt Ideal) (G m c) := by
  show (cfg0.win 5).cut (grid0.coords t) ((dats m 0 c).after 5 t) = _
  rw [after0_5, out_at]
  funext j
  obtain ⟨p, q, rfl⟩ : ∃ (p q : Fin 512), j = ix2 p q := ⟨j 0, j 1, eq_ix2 j⟩
  refine (cut5_apply t _ p q).trans ?_
  refine (tile_apply (xblk m c t) (wblk (wqblk m c t) (scblk m c t) (shblk m c t)) (brow m c t) p q).trans ?_
  refine Eq.trans ?_ (blk5_read (G m c) t p q).symm
  refine Eq.trans ?_ (G_apply m c (grow t p) (gcol t q)).symm
  refine congr (congrArg HAdd.hAdd (Finset.sum_congr rfl fun k _ => ?_)) (brow_apply m c t q)
  exact congr (congrArg HMul.hMul (xblk_apply m c t p k)) (wblk_point m c t q k)

/-- Every entry of the output array lies in the block of a point that writes back, so the array ends as the output
    function. -/
theorem final5 (c : Dev nD) : (dats m 0 c).arrAt 5 cfg0.N = G m c :=
  (dats m 0 c).arrAt_eq_of_cover 5 (G m c) (fun t _ => flushed_eq m c t) cover5

/-- The specification's result at batch `a`, position `b`, output feature `o`. -/
private theorem result_apply (x : (⟨3, ![4, 2048, 4096]⟩ : Shape).Idx → EReal) (wq : (⟨2, ![4096, 512]⟩ : Shape).Idx → BitVec 32)
    (sc sh : (⟨2, ![4096, 32]⟩ : Shape).Idx → EReal) (bias : (⟨1, ![4096]⟩ : Shape).Idx → EReal)
    (a : Fin 4) (b : Fin 2048) (o : Fin 4096) :
    Cert.Dequant.result x wq sc sh bias (ix3 a b o)
      = (∑ k : Fin 4096, x (ix3 a b k) * Cert.Dequant.weight wq sc sh o k) + bias (ix1 o) := rfl

/-- Two indices with equal first and second coordinates and the same third are equal. -/
private theorem ix3_congr {n0 n1 n2 : Nat} {a a' : Fin n0} {b b' : Fin n1} (k : Fin n2) (ha : a = a') (hb : b = b') :
    ix3 a b k = ix3 a' b' k := by subst ha hb; rfl

/-- The program's result is the specification's: entry `(a, b, o)` is entry `(2048 a + b, o)` of the output array, and
    row `2048 a + b` of the flattened activations is position `b` of batch `a`. -/
theorem result_eq (c : Dev nD) :
    (Pipeline.afterTail₀ cfgs (dats m) 0 (V0 m) [hostOps1] c main_v4 : Vec Ideal S4x2048x4096 .f32)
      = Cert.Dequant.result (m ((c : Thread nD τ).loc main_arg0)) (m ((c : Thread nD τ).loc main_arg1)) (m ((c : Thread nD τ).loc main_arg2)) (m ((c : Thread nD τ).loc main_arg3)) (m ((c : Thread nD τ).loc main_arg4)) := by
  funext i
  obtain ⟨a, b, o, rfl⟩ : ∃ (a : Fin 4) (b : Fin 2048) (o : Fin 4096), i = ix3 a b o := ⟨i 0, i 1, i 2, eq_ix3 i⟩
  refine (tail_apply m c a b o).trans ?_
  refine (congrFun (final5 m c) _).trans ?_
  refine (G_apply m c _ o).trans ?_
  refine Eq.trans ?_ (result_apply _ _ _ _ _ a b o).symm
  rw [wqarr_eq, scarr_eq, sharr_eq]
  refine congr (congrArg HAdd.hAdd (Finset.sum_congr rfl fun k _ => ?_)) (barr_apply m c o)
  refine congr (congrArg HMul.hMul ?_) rfl
  refine (xarr_apply m c _ k).trans ?_
  -- row `2048 a + b` of the flattened activations is position `b` of batch `a`
  exact congrArg _ (ix3_congr k
    (Fin.ext (by show (a.val * 2048 + b.val) / 2048 = a.val; have := b.isLt; omega))
    (Fin.ext (by show (a.val * 2048 + b.val) % 2048 = b.val; have := b.isLt; omega)))

/-- The run, read: the result is the specification's function of the five arguments, and the arguments end as launched. -/
theorem run : θ_run defs (onTc (τ := τ) (main (F := Ideal))) ⟨m, fun _ => 0, ρ⟩ fun r => ∀ c : Dev nD,
      r.2.mem ((c : Thread nD τ).loc main_v4) = Cert.Dequant.result (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.KernelIdeal.Final

end
-- ==== Proof.lean ====
/-
  A linear layer over 4-bit weights, eight packed to a 32-bit word, with one scale and one shift for every group of
  128 input features: `out[b, s, o] = (∑ k, x[b, s, k] * (scale[o, k / 128] * field (k % 8) of word[o, k / 8] + shift[o, k / 128])) + bias[o]`.

  The reference builds the whole 4096 x 4096 matrix of dequantized weights on the host and contracts it with the
  activations. The kernel walks an 8 x 16 grid of 512 x 512 output tiles: at the first point of each column tile it
  dequantizes that tile's 512 rows of weights, sixteen chunks of 256 input features at a time, into a buffer it keeps
  for the sixteen row tiles that follow, and every point multiplies its 512 rows of activations by the kept block and
  adds the bias row. At the ideal values narrowing to bf16 is the identity, so both programs compute the same sum of
  the same products, term by term and in the same order: no law of the extended reals beyond reading both sides at an
  index is needed, and the inputs' finiteness is never used.

  The three frames are the generated ones (the reference's from its generated run). The ideal pass rewrote nothing,
  so the idealization claim is trivial. The value claim puts the kernel's run (Proof/Final.lean) beside the
  reference's generated run read at an index (Proof/RefResult.lean); both end at `Cert.Dequant.result` (Proof/Spec.lean).
-/
import proofs.«425439_j44959717655209_3_alg».proof.Defs
import proofs.«425439_j44959717655209_3_alg».proof.Proof.Gen.Kernel
import proofs.«425439_j44959717655209_3_alg».proof.Proof.Gen.Kernel.Skeleton
import proofs.«425439_j44959717655209_3_alg».proof.Proof.Gen.Kernel.Launch
import proofs.«425439_j44959717655209_3_alg».proof.Proof.Gen.Kernel.Points
import proofs.«425439_j44959717655209_3_alg».proof.Proof.Gen.Kernel.Frame
import proofs.«425439_j44959717655209_3_alg».proof.Proof.Gen.KernelIdeal
import proofs.«425439_j44959717655209_3_alg».proof.Proof.Gen.KernelIdeal.Skeleton
import proofs.«425439_j44959717655209_3_alg».proof.Proof.Gen.KernelIdeal.Launch
import proofs.«425439_j44959717655209_3_alg».proof.Proof.Gen.KernelIdeal.Points
import proofs.«425439_j44959717655209_3_alg».proof.Proof.Gen.KernelIdeal.Frame
import proofs.«425439_j44959717655209_3_alg».proof.Proof.Gen.ReferenceIdeal
import proofs.«425439_j44959717655209_3_alg».proof.Proof.Gen.Pre_finite_inputs
import proofs.«425439_j44959717655209_3_alg».proof.Proof.Gen.ReferenceIdeal.Run
import proofs.«425439_j44959717655209_3_alg».proof.Proof.Gen.ReferenceIdeal.Read
import proofs.«425439_j44959717655209_3_alg».proof.Proof.RefResult
import proofs.«425439_j44959717655209_3_alg».proof.Proof.Final
import Idealize.ShloMosaic.Adequacy
import Idealize.ShloMosaic.Init

noncomputable section

namespace Cert.Proof

open Idealize.ShloMosaic Idealize.ShloMosaic.TcCoe Idealize.SL.Sem

/-- The word-level kernel terminates without a fault and keeps its arguments. -/
theorem frame_kernel : Cert.frame_Kernel := fun m ρ _ => Cert.Kernel.Gen.frame m ρ

/-- So does the kernel at the ideal values. -/
theorem frame_kernel_ideal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the five arguments both programs end with the layer's result of those arguments. -/
theorem algebraic : Cert.algebraic_KernelIdeal_ReferenceIdeal := by
  intro m ρ m' ρ' _ hagree
  refine ⟨_, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ReferenceIdeal.RefValue.reference_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
